-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x21 : Shape := ⟨2, ![16384, 21]⟩
abbrev S16384x39 : Shape := ⟨2, ![16384, 39]⟩
abbrev S1000001x64 : Shape := ⟨2, ![1000001, 64]⟩
abbrev S500001x64 : Shape := ⟨2, ![500001, 64]⟩
abbrev S64x85 : Shape := ⟨2, ![64, 85]⟩
abbrev S64 : Shape := ⟨1, ![64]⟩
abbrev S64x103 : Shape := ⟨2, ![64, 103]⟩
abbrev S256x128 : Shape := ⟨2, ![256, 128]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384x21 : S_.BroadcastsInDim S16384x21 (![] : Fin 0 → Fin S16384x21.rank)
  reducesTo_S16384x21_S_d0_1 : S16384x21.ReducesTo [0, 1] S_
  h_S_ : 0 < S_.numel
  bcast_S_S16384x39 : S_.BroadcastsInDim S16384x39 (![] : Fin 0 → Fin S16384x39.rank)
  reducesTo_S16384x39_S_d0_1 : S16384x39.ReducesTo [0, 1] S_
  bcast_S_S1000001x64 : S_.BroadcastsInDim S1000001x64 (![] : Fin 0 → Fin S1000001x64.rank)
  reducesTo_S1000001x64_S_d0_1 : S1000001x64.ReducesTo [0, 1] S_
  bcast_S_S500001x64 : S_.BroadcastsInDim S500001x64 (![] : Fin 0 → Fin S500001x64.rank)
  reducesTo_S500001x64_S_d0_1 : S500001x64.ReducesTo [0, 1] S_
  bcast_S_S64x85 : S_.BroadcastsInDim S64x85 (![] : Fin 0 → Fin S64x85.rank)
  reducesTo_S64x85_S_d0_1 : S64x85.ReducesTo [0, 1] S_
  bcast_S_S64 : S_.BroadcastsInDim S64 (![] : Fin 0 → Fin S64.rank)
  reducesTo_S64_S_d0 : S64.ReducesTo [0] S_
  bcast_S_S64x103 : S_.BroadcastsInDim S64x103 (![] : Fin 0 → Fin S64x103.rank)
  reducesTo_S64x103_S_d0_1 : S64x103.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S256x128 .f32) (main_arg11 : FVec F S256 .f32) (main_arg12 : FVec F S1x256 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg12
  let main_cst_18 : FVec F S_ .f32 := constant S_ .f32 0x7F800000#32
  let main_v50 : FVec F S1x256 .f32 := broadcastInDim S1x256 ![] bcast_S_S1x256 main_cst_18
  fn_part3 (F := F) main_arg13 main_v48 main_v49 main_v50

def fn_part1 {F : FTy → Type} [FloatOps F] (main_arg6 : FVec F S64x85 .f32) (main_arg7 : FVec F S64 .f32) (main_arg8 : FVec F S64x103 .f32) (main_arg9 : FVec F S64 .f32) (main_arg10 : FVec F S256x128 .f32) (main_arg11 : FVec F S256 .f32) (main_arg12 : FVec F S1x256 .f32) (main_arg13 : FVec F S1 .f32) (main_v13 : IVec S_ 1) (main_v16 : IVec S500001x64 1) : IVec S_ 1 :=
  let main_c_5 : IVec S_ 1 := constantI S_ 1 1#1
  let main_v17 : IVec S_ 1 := (fun x v => Host.reduce IntOp.andi x v reducesTo_S500001x64_S_d0_1 h_S_) main_v16 main_c_5
  let main_v18 : IVec S_ 1 := andi main_v13 main_v17
  let main_v19 : FVec F S64x85 .f32 := Host.absf main_arg6
  let main_cst_6 : FVec F S_ .f32 := constant S_ .f32 0x7F800000#32
  let main_v20 : FVec F S64x85 .f32 := broadcastInDim S64x85 ![] bcast_S_S64x85 main_cst_6
  let main_v21 : IVec S64x85 1 := cmpf .olt main_v19 main_v20
  let main_c_7 : IVec S_ 1 := constantI S_ 1 1#1
  let main_v22 : IVec S_ 1 := (fun x v => Host.reduce IntOp.andi x v reducesTo_S64x85_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x103 .f32 := Host.absf main_arg8
  let main_cst_10 : FVec F S_ .f32 := constant S_ .f32 0x7F800000#32
  let main_v30 : FVec F S64x103 .f32 := broadcastInDim S64x103 ![] bcast_S_S64x103 main_cst_10
  let main_v31 : IVec S64x103 1 := cmpf .olt main_v29 main_v30
  let main_c_11 : IVec S_ 1 := constantI S_ 1 1#1
  let main_v32 : IVec S_ 1 := (fun x v => Host.reduce IntOp.andi x v reducesTo_S64x103_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S16384 32) (main_arg1 : IVec S16384 32) (main_arg2 : FVec F S16384x21 .f32) (main_arg3 : FVec F S16384x39 .f32) (main_arg4 : FVec F S1000001x64 .f32) (main_arg5 : FVec F S500001x64 .f32) (main_arg6 : FVec F S64x85 .f32) (main_arg7 : FVec F S64 .f32) (main_arg8 : FVec F S64x103 .f32) (main_arg9 : FVec F S64 .f32) (main_arg10 : FVec F S256x128 .f32) (main_arg11 : FVec F S256 .f32) (main_arg12 : FVec F S1x256 .f32) (main_arg13 : FVec F S1 .f32) : IVec S_ 1 :=
  let main_v0 : FVec F S16384x21 .f32 := Host.absf main_arg2
  let main_cst : FVec F S_ .f32 := constant S_ .f32 0x7F800000#32
  let main_v1 : FVec F S16384x21 .f32 := broadcastInDim S16384x21 ![] bcast_S_S16384x21 main_cst
  let main_v2 : IVec S16384x21 1 := cmpf .olt main_v0 main_v1
  let main_c : IVec S_ 1 := constantI S_ 1 1#1
  let main_v3 : IVec S_ 1 := (fun x v => Host.reduce IntOp.andi x v reducesTo_S16384x21_S_d0_1 h_S_) main_v2 main_c
  let main_v4 : FVec F S16384x39 .f32 := Host.absf main_arg3
  let main_cst_0 : FVec F S_ .f32 := constant S_ .f32 0x7F800000#32
  let main_v5 : FVec F S16384x39 .f32 := broadcastInDim S16384x39 ![] bcast_S_S16384x39 main_cst_0
  let main_v6 : IVec S16384x39 1 := cmpf .olt main_v4 main_v5
  let main_c_1 : IVec S_ 1 := constantI S_ 1 1#1
  let main_v7 : IVec S_ 1 := (fun x v => Host.reduce IntOp.andi x v reducesTo_S16384x39_S_d0_1 h_S_) main_v6 main_c_1
  let main_v8 : IVec S_ 1 := andi main_v3 main_v7
  let main_v9 : FVec F S1000001x64 .f32 := Host.absf main_arg4
  let main_cst_2 : FVec F S_ .f32 := constant S_ .f32 0x7F800000#32
  let main_v10 : FVec F S1000001x64 .f32 := broadcastInDim S1000001x64 ![] bcast_S_S1000001x64 main_cst_2
  let main_v11 : IVec S1000001x64 1 := cmpf .olt main_v9 main_v10
  let main_c_3 : IVec S_ 1 := constantI S_ 1 1#1
  let main_v12 : IVec S_ 1 := (fun x v => Host.reduce IntOp.andi x v reducesTo_S1000001x64_S_d0_1 h_S_) main_v11 main_c_3
  let main_v13 : IVec S_ 1 := andi main_v8 main_v12
  let main_v14 : FVec F S500001x64 .f32 := Host.absf main_arg5
  let main_cst_4 : FVec F S_ .f32 := constant S_ .f32 0x7F800000#32
  let main_v15 : FVec F S500001x64 .f32 := broadcastInDim S500001x64 ![] bcast_S_S500001x64 main_cst_4
  let main_v16 : IVec S500001x64 1 := cmpf .olt main_v14 main_v15
  fn_part1 (F := F) main_arg6 main_arg7 main_arg8 main_arg9 main_arg10 main_arg11 main_arg12 main_arg13 main_v13 main_v16
-- ==== Kernel.lean ====
abbrev S16384 : Shape := ⟨1, ![16384]⟩
abbrev S16384x21 : Shape := ⟨2, ![16384, 21]⟩
abbrev S16384x39 : Shape := ⟨2, ![16384, 39]⟩
abbrev S1000001x64 : Shape := ⟨2, ![1000001, 64]⟩
abbrev S500001x64 : Shape := ⟨2, ![500001, 64]⟩
abbrev S64x85 : Shape := ⟨2, ![64, 85]⟩
abbrev S64 : Shape := ⟨1, ![64]⟩
abbrev S64x103 : Shape := ⟨2, ![64, 103]⟩
abbrev S256x128 : Shape := ⟨2, ![256, 128]⟩
abbrev S256 : Shape := ⟨1, ![256]⟩
abbrev S1x256 : Shape := ⟨2, ![1, 256]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S64x64 : Shape := ⟨2, ![64, 64]⟩
abbrev S64x21 : Shape := ⟨2, ![64, 21]⟩
abbrev S64x39 : Shape := ⟨2, ![64, 39]⟩
abbrev S256x64 : Shape := ⟨2, ![256, 64]⟩
abbrev S1x64 : Shape := ⟨2, ![1, 64]⟩
abbrev S1x1 : Shape := ⟨2, ![1, 1]⟩
abbrev S2048x64 : Shape := ⟨2, ![2048, 64]⟩
abbrev S2048x21 : Shape := ⟨2, ![2048, 21]⟩
abbrev S2048x39 : Shape := ⟨2, ![2048, 39]⟩
abbrev S2048x1 : Shape := ⟨2, ![2048, 1]⟩
abbrev S21x64 : Shape := ⟨2, ![21, 64]⟩
abbrev S39x64 : Shape := ⟨2, ![39, 64]⟩
abbrev S64x256 : Shape := ⟨2, ![64, 256]⟩
abbrev S2048x256 : Shape := ⟨2, ![2048, 256]⟩
abbrev S256x1 : Shape := ⟨2, ![256, 1]⟩

abbrev nBuf : Space → Nat
  | .hbm => 50
  | .vmem => 21
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x21, .f32⟩
  | .hbm, ⟨3, _⟩ => ⟨S16384x39, .f32⟩
  | .hbm, ⟨4, _⟩ => ⟨S1000001x64, .f32⟩
  | .hbm, ⟨5, _⟩ => ⟨S500001x64, .f32⟩
  | .hbm, ⟨6, _⟩ => ⟨S64x85, .f32⟩
  | .hbm, ⟨7, _⟩ => ⟨S64, .f32⟩
  | .hbm, ⟨8, _⟩ => ⟨S64x103, .f32⟩
  | .hbm, ⟨9, _⟩ => ⟨S64, .f32⟩
  | .hbm, ⟨10, _⟩ => ⟨S256x128, .f32⟩
  | .hbm, ⟨11, _⟩ => ⟨S256, .f32⟩
  | .hbm, ⟨12, _⟩ => ⟨S1x256, .f32⟩
  | .hbm, ⟨13, _⟩ => ⟨S1, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x64, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x64, .f32⟩
  | .hbm, ⟨32, _⟩ => ⟨S64x64, .f32⟩
  | .hbm, ⟨33, _⟩ => ⟨S64x21, .f32⟩
  | .hbm, ⟨34, _⟩ => ⟨S64x64, .f32⟩
  | .hbm, ⟨35, _⟩ => ⟨S64x39, .f32⟩
  | .hbm, ⟨36, _⟩ => ⟨S256x64, .f32⟩
  | .hbm, ⟨37, _⟩ => ⟨S256x64, .f32⟩
  | .hbm, ⟨38, _⟩ => ⟨S64x64, .bf16⟩
  | .hbm, ⟨39, _⟩ => ⟨S64x21, .bf16⟩
  | .hbm, ⟨40, _⟩ => ⟨S64x64, .bf16⟩
  | .hbm, ⟨41, _⟩ => ⟨S64x39, .bf16⟩
  | .hbm, ⟨42, _⟩ => ⟨S256x64, .bf16⟩
  | .hbm, ⟨43, _⟩ => ⟨S256x64, .bf16⟩
  | .hbm, ⟨44, _⟩ => ⟨S1x256, .bf16⟩
  | .hbm, ⟨45, _⟩ => ⟨S1x64, .f32⟩
  | .hbm, ⟨46, _⟩ => ⟨S1x64, .f32⟩
  | .hbm, ⟨47, _⟩ => ⟨S1x256, .f32⟩
  | .hbm, ⟨48, _⟩ => ⟨S1x1, .f32⟩
  | .hbm, ⟨49, _⟩ => ⟨S16384x1, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x21, .f32⟩
  | .local _ .vmem, ⟨5, _⟩ => ⟨S2048x21, .f32⟩
  | .local _ .vmem, ⟨6, _⟩ => ⟨S2048x39, .f32⟩
  | .local _ .vmem, ⟨7, _⟩ => ⟨S2048x39, .f32⟩
  | .local _ .vmem, ⟨8, _⟩ => ⟨S64x64, .bf16⟩
  | .local _ .vmem, ⟨9, _⟩ => ⟨S64x21, .bf16⟩
  | .local _ .vmem, ⟨10, _⟩ => ⟨S1x64, .f32⟩
  | .local _ .vmem, ⟨11, _⟩ => ⟨S64x64, .bf16⟩
  | .local _ .vmem, ⟨12, _⟩ => ⟨S64x39, .bf16⟩
  | .local _ .vmem, ⟨13, _⟩ => ⟨S1x64, .f32⟩
  | .local _ .vmem, ⟨14, _⟩ => ⟨S256x64, .bf16⟩
  | .local _ .vmem, ⟨15, _⟩ => ⟨S256x64, .bf16⟩
  | .local _ .vmem, ⟨16, _⟩ => ⟨S1x256, .f32⟩
  | .local _ .vmem, ⟨17, _⟩ => ⟨S1x256, .bf16⟩
  | .local _ .vmem, ⟨18, _⟩ => ⟨S1x1, .f32⟩
  | .local _ .vmem, ⟨19, _⟩ => ⟨S2048x1, .f32⟩
  | .local _ .vmem, ⟨20, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x39 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x21 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x39 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S64x85_S64x64_0_0 : S64x85.Slices ![0, 0] S64x64
  slices_S64x85_S64x21_0_64 : S64x85.Slices ![0, 64] S64x21
  slices_S64x103_S64x64_0_0 : S64x103.Slices ![0, 0] S64x64
  slices_S64x103_S64x39_0_64 : S64x103.Slices ![0, 64] S64x39
  slices_S256x128_S256x64_0_0 : S256x128.Slices ![0, 0] S256x64
  slices_S256x128_S256x64_0_64 : S256x128.Slices ![0, 64] S256x64
  bitsLt_bf16_f32 : FTy.bits .bf16 < FTy.bits .f32
  shapeCasts_S64_S1x64 : S64.ShapeCasts S1x64
  shapeCasts_S256_S1x256 : S256.ShapeCasts S1x256
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x21_S2048x21_0_0 : ∀ a, (![0, 0] : Fin 2 → Nat) a + S2048x21.size a ≤ S2048x21.size a
  h_S2048x21 : 0 < S2048x21.numel
  inb_S2048x39_S2048x39_0_0 : ∀ a, (![0, 0] : Fin 2 → Nat) a + S2048x39.size a ≤ S2048x39.size a
  h_S2048x39 : 0 < S2048x39.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S64x21_S64x21_0_0 : ∀ a, (![0, 0] : Fin 2 → Nat) a + S64x21.size a ≤ S64x21.size a
  h_S64x21 : 0 < S64x21.numel
  shapeCasts_S64x21_S64x21 : S64x21.ShapeCasts S64x21
  transposes_S64x21_p1_0_S21x64 : S64x21.Transposes [1, 0] S21x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x39_S64x39_0_0 : ∀ a, (![0, 0] : Fin 2 → Nat) a + S64x39.size a ≤ S64x39.size a
  h_S64x39 : 0 < S64x39.numel
  shapeCasts_S64x39_S64x39 : S64x39.ShapeCasts S64x39
  transposes_S64x39_p1_0_S39x64 : S64x39.Transposes [1, 0] S39x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  transposes_S1x256_p1_0_S256x1 : S1x256.Transposes [1, 0] S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S1000001x64_S16384x1_S16384x64_1_0_n_n_0_1_164_wf : GatherDims.WF S1000001x64 S16384x1 S16384x64 [1] [0] [] [0] [] 1 ![1, 64]
  gather_S500001x64_S16384x1_S16384x64_1_0_n_n_0_1_164_wf : GatherDims.WF S500001x64 S16384x1 S16384x64 [1] [0] [] [0] [] 1 ![1, 64]
  dot_S2048x64_S64x64_S2048x64_1_0_0_1_n_n_wf : DotDims.WF S2048x64 S64x64 S2048x64 [1] [0] [0] [1] [] []
  dot_S2048x21_S21x64_S2048x64_1_0_0_1_n_n_wf : DotDims.WF S2048x21 S21x64 S2048x64 [1] [0] [0] [1] [] []
  dot_S2048x39_S39x64_S2048x64_1_0_0_1_n_n_wf : DotDims.WF S2048x39 S39x64 S2048x64 [1] [0] [0] [1] [] []
  dot_S2048x64_S64x256_S2048x256_1_0_0_1_n_n_wf : DotDims.WF S2048x64 S64x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x21.size a ≤ S16384x21.size a
  hwx0_2 : ∀ i : grid0.Coords, EltTy.bits .f32 = 32 ∨ (Rect.block (s := S16384x21) S2048x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x39.size a ≤ S16384x39.size a
  hwx0_3 : ∀ i : grid0.Coords, EltTy.bits .f32 = 32 ∨ (Rect.block (s := S16384x39) S2048x39.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x21.size a ≤ S64x21.size a
  hwx0_5 : ∀ i : grid0.Coords, EltTy.bits .bf16 = 32 ∨ (Rect.block (s := S64x21) S64x21.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x39.size a ≤ S64x39.size a
  hwx0_8 : ∀ i : grid0.Coords, EltTy.bits .bf16 = 32 ∨ (Rect.block (s := S64x39) S64x39.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S256x64.size a
  hwx0_10 : ∀ i : grid0.Coords, EltTy.bits .bf16 = 32 ∨ (Rect.block (s := S256x64) S256x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x64.size a ≤ S256x64.size a
  hwx0_11 : ∀ i : grid0.Coords, EltTy.bits .bf16 = 32 ∨ (Rect.block (s := S256x64) S256x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .bf16 = 32 ∨ (Rect.block (s := S1x256) S1x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x1.size a ≤ S16384x1.size a
  hwx0_15 : ∀ i : grid0.Coords, EltTy.bits .f32 = 32 ∨ (Rect.block (s := S16384x1) S2048x1.size (cc0_transform_15 i) (hinb0_15 i)).WholeWords (EltTy.packing .f32)

variable [Facts₀]

def gather_S1000001x64_S16384x1_S16384x64_1_0_n_n_0_1_164 : GatherDims S1000001x64 S16384x1 S16384x64 where
  offsetDims := [1]
  collapsedSliceDims := [0]
  operandBatchingDims := []
  startIndicesBatchingDims := []
  startIndexMap := [0]
  indexVectorDim := 1
  sliceSizes := ![1, 64]
  wf := gather_S1000001x64_S16384x1_S16384x64_1_0_n_n_0_1_164_wf
def gather_S500001x64_S16384x1_S16384x64_1_0_n_n_0_1_164 : GatherDims S500001x64 S16384x1 S16384x64 where
  offsetDims := [1]
  collapsedSliceDims := [0]
  operandBatchingDims := []
  startIndicesBatchingDims := []
  startIndexMap := [0]
  indexVectorDim := 1
  sliceSizes := ![1, 64]
  wf := gather_S500001x64_S16384x1_S16384x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x21_S21x64_S2048x64_1_0_0_1_n_n : DotDims S2048x21 S21x64 S2048x64 where
  lhsContracting := [1]
  rhsContracting := [0]
  lhsNonContracting := [0]
  rhsNonContracting := [1]
  lhsBatch := []
  rhsBatch := []
  wf := dot_S2048x21_S21x64_S2048x64_1_0_0_1_n_n_wf
def dot_S2048x39_S39x64_S2048x64_1_0_0_1_n_n : DotDims S2048x39 S39x64 S2048x64 where
  lhsContracting := [1]
  rhsContracting := [0]
  lhsNonContracting := [0]
  rhsNonContracting := [1]
  lhsBatch := []
  rhsBatch := []
  wf := dot_S2048x39_S39x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v6) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x21.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x39.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64x21.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S64x39.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S256x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S256x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v30) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v31) S2048x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384 : Shape := ⟨1, ![16384]⟩
abbrev S16384x21 : Shape := ⟨2, ![16384, 21]⟩
abbrev S16384x39 : Shape := ⟨2, ![16384, 39]⟩
abbrev S1000001x64 : Shape := ⟨2, ![1000001, 64]⟩
abbrev S500001x64 : Shape := ⟨2, ![500001, 64]⟩
abbrev S64x85 : Shape := ⟨2, ![64, 85]⟩
abbrev S64 : Shape := ⟨1, ![64]⟩
abbrev S64x103 : Shape := ⟨2, ![64, 103]⟩
abbrev S256x128 : Shape := ⟨2, ![256, 128]⟩
abbrev S256 : Shape := ⟨1, ![256]⟩
abbrev S1x256 : Shape := ⟨2, ![1, 256]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x85 : Shape := ⟨2, ![16384, 85]⟩
abbrev S85x64 : Shape := ⟨2, ![85, 64]⟩
abbrev S1x64 : Shape := ⟨2, ![1, 64]⟩
abbrev S16384x103 : Shape := ⟨2, ![16384, 103]⟩
abbrev S103x64 : Shape := ⟨2, ![103, 64]⟩
abbrev S16384x128 : Shape := ⟨2, ![16384, 128]⟩
abbrev S128x256 : Shape := ⟨2, ![128, 256]⟩
abbrev S16384x256 : Shape := ⟨2, ![16384, 256]⟩
abbrev S256x1 : Shape := ⟨2, ![256, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x21, .f32⟩
  | .hbm, ⟨3, _⟩ => ⟨S16384x39, .f32⟩
  | .hbm, ⟨4, _⟩ => ⟨S1000001x64, .f32⟩
  | .hbm, ⟨5, _⟩ => ⟨S500001x64, .f32⟩
  | .hbm, ⟨6, _⟩ => ⟨S64x85, .f32⟩
  | .hbm, ⟨7, _⟩ => ⟨S64, .f32⟩
  | .hbm, ⟨8, _⟩ => ⟨S64x103, .f32⟩
  | .hbm, ⟨9, _⟩ => ⟨S64, .f32⟩
  | .hbm, ⟨10, _⟩ => ⟨S256x128, .f32⟩
  | .hbm, ⟨11, _⟩ => ⟨S256, .f32⟩
  | .hbm, ⟨12, _⟩ => ⟨S1x256, .f32⟩
  | .hbm, ⟨13, _⟩ => ⟨S1, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x64, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x64, .f32⟩
  | .hbm, ⟨32, _⟩ => ⟨S16384x85, .f32⟩
  | .hbm, ⟨33, _⟩ => ⟨S_, .f32⟩
  | .hbm, ⟨34, _⟩ => ⟨S16384x85, .f32⟩
  | .hbm, ⟨35, _⟩ => ⟨S16384x85, .f32⟩
  | .hbm, ⟨36, _⟩ => ⟨S85x64, .f32⟩
  | .hbm, ⟨37, _⟩ => ⟨S16384x64, .f32⟩
  | .hbm, ⟨38, _⟩ => ⟨S1x64, .f32⟩
  | .hbm, ⟨39, _⟩ => ⟨S16384x64, .f32⟩
  | .hbm, ⟨40, _⟩ => ⟨S16384x64, .f32⟩
  | .hbm, ⟨41, _⟩ => ⟨S16384x64, .f32⟩
  | .hbm, ⟨42, _⟩ => ⟨S16384x103, .f32⟩
  | .hbm, ⟨43, _⟩ => ⟨S_, .f32⟩
  | .hbm, ⟨44, _⟩ => ⟨S16384x103, .f32⟩
  | .hbm, ⟨45, _⟩ => ⟨S16384x103, .f32⟩
  | .hbm, ⟨46, _⟩ => ⟨S103x64, .f32⟩
  | .hbm, ⟨47, _⟩ => ⟨S16384x64, .f32⟩
  | .hbm, ⟨48, _⟩ => ⟨S1x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x128, .f32⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S128x256, .f32⟩
  | .hbm, ⟨57, _⟩ => ⟨S16384x256, .f32⟩
  | .hbm, ⟨58, _⟩ => ⟨S1x256, .f32⟩
  | .hbm, ⟨59, _⟩ => ⟨S16384x256, .f32⟩
  | .hbm, ⟨60, _⟩ => ⟨S16384x256, .f32⟩
  | .hbm, ⟨61, _⟩ => ⟨S_, .f32⟩
  | .hbm, ⟨62, _⟩ => ⟨S16384x256, .f32⟩
  | .hbm, ⟨63, _⟩ => ⟨S16384x256, .f32⟩
  | .hbm, ⟨64, _⟩ => ⟨S256x1, .f32⟩
  | .hbm, ⟨65, _⟩ => ⟨S16384x1, .f32⟩
  | .hbm, ⟨66, _⟩ => ⟨S1x1, .f32⟩
  | .hbm, ⟨67, _⟩ => ⟨S16384x1, .f32⟩
  | .hbm, ⟨68, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_cst : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call3_cst : Ref sig .tc := ⟨.hbm, 61, rfl⟩
abbrev main_call3_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x21_S16384x85_d1 : Shape.Concatenates [S16384x64, S16384x21] S16384x85 1
  bcast_S_S16384x85 : S_.BroadcastsInDim S16384x85 (![] : Fin 0 → Fin S16384x85.rank)
  transposes_S64x85_S85x64_1_0 : S64x85.Transposes [1, 0] S85x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  concatenates_S16384x64_S16384x39_S16384x103_d1 : Shape.Concatenates [S16384x64, S16384x39] S16384x103 1
  bcast_S_S16384x103 : S_.BroadcastsInDim S16384x103 (![] : Fin 0 → Fin S16384x103.rank)
  transposes_S64x103_S103x64_1_0 : S64x103.Transposes [1, 0] S103x64
  concatenates_S16384x64_S16384x64_S16384x128_d1 : Shape.Concatenates [S16384x64, S16384x64] S16384x128 1
  bcast_S_S16384x128 : S_.BroadcastsInDim S16384x128 (![] : Fin 0 → Fin S16384x128.rank)
  transposes_S256x128_S128x256_1_0 : S256x128.Transposes [1, 0] S128x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1x256_S256x1_1_0 : S1x256.Transposes [1, 0] S256x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S1000001x64_S16384x1_S16384x64_1_0_n_n_0_1_164_wf : GatherDims.WF S1000001x64 S16384x1 S16384x64 [1] [0] [] [0] [] 1 ![1, 64]
  gather_S500001x64_S16384x1_S16384x64_1_0_n_n_0_1_164_wf : GatherDims.WF S500001x64 S16384x1 S16384x64 [1] [0] [] [0] [] 1 ![1, 64]
  dot_S16384x85_S85x64_S16384x64_1_0_0_1_n_n_wf : DotDims.WF S16384x85 S85x64 S16384x64 [1] [0] [0] [1] [] []
  dot_S16384x103_S103x64_S16384x64_1_0_0_1_n_n_wf : DotDims.WF S16384x103 S103x64 S16384x64 [1] [0] [0] [1] [] []
  dot_S16384x128_S128x256_S16384x256_1_0_0_1_n_n_wf : DotDims.WF S16384x128 S128x256 S16384x256 [1] [0] [0] [1] [] []
  dot_S16384x256_S256x1_S16384x1_1_0_0_1_n_n_wf : DotDims.WF S16384x256 S256x1 S16384x1 [1] [0] [0] [1] [] []

variable [Facts₀]

def gather_S1000001x64_S16384x1_S16384x64_1_0_n_n_0_1_164 : GatherDims S1000001x64 S16384x1 S16384x64 where
  offsetDims := [1]
  collapsedSliceDims := [0]
  operandBatchingDims := []
  startIndicesBatchingDims := []
  startIndexMap := [0]
  indexVectorDim := 1
  sliceSizes := ![1, 64]
  wf := gather_S1000001x64_S16384x1_S16384x64_1_0_n_n_0_1_164_wf
def gather_S500001x64_S16384x1_S16384x64_1_0_n_n_0_1_164 : GatherDims S500001x64 S16384x1 S16384x64 where
  offsetDims := [1]
  collapsedSliceDims := [0]
  operandBatchingDims := []
  startIndicesBatchingDims := []
  startIndexMap := [0]
  indexVectorDim := 1
  sliceSizes := ![1, 64]
  wf := gather_S500001x64_S16384x1_S16384x64_1_0_n_n_0_1_164_wf
def dot_S16384x85_S85x64_S16384x64_1_0_0_1_n_n : DotDims S16384x85 S85x64 S16384x64 where
  lhsContracting := [1]
  rhsContracting := [0]
  lhsNonContracting := [0]
  rhsNonContracting := [1]
  lhsBatch := []
  rhsBatch := []
  wf := dot_S16384x85_S85x64_S16384x64_1_0_0_1_n_n_wf
def dot_S16384x103_S103x64_S16384x64_1_0_0_1_n_n : DotDims S16384x103 S103x64 S16384x64 where
  lhsContracting := [1]
  rhsContracting := [0]
  lhsNonContracting := [0]
  rhsNonContracting := [1]
  lhsBatch := []
  rhsBatch := []
  wf := dot_S16384x103_S103x64_S16384x64_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibRowWise.lean ====
/-
  An [R, C] array of extended reals described ROW BY ROW. `Rows V f` says that the array `V` holds `f p q` at row `p`,
  column `q`. A network that treats the rows of a batch independently of one another (products with fixed weight
  matrices, a bias row added to every row, pointwise nonlinearities) keeps such a description through each of its
  operations whatever the number of rows is, so that a block of rows and the whole batch are read by the same lemmas:

  * pointwise: sum, difference, product, maximum, tanh, the logistic function (as one operation, and spelt
    1 / (1 + exp (-x)) with the float word of 1.0), a change of float format (the identity on extended reals);
  * a product with a [K, C] matrix on the right, by the matrix unit into a zero accumulator and by the host's dot
    product: row p of the result is row p of the left operand times the matrix;
  * matrix number o of a stack [n, K, C], cut out and viewed as [K, C];
  * row number o of a stack [n, 1, C], cut out, viewed as a [1, C] row and repeated down R rows (both spellings of
    the repetition);
  * a scalar repeated over the whole array (both spellings).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«181629_j33629593927760_1_alg».proof.Proof.LibPlainDot

noncomputable section

open scoped BigOperators

namespace Idealize.ShloMosaic.RowWise

open Idealize.ShloMosaic Idealize.ShloMosaic.ValueIdx

/-- The array `V` holds `f p q` at row `p`, column `q`. -/
def Rows {R C : ℕ} (V : (⟨2, ![R, C]⟩ : Shape).Idx → EReal) (f : Fin R → Fin C → EReal) : Prop :=
  ∀ (p : Fin R) (q : Fin C), V (ix2 p q) = f p q

variable {R C : ℕ} {φ : FTy}

/-- Every array is described by its own entries. -/
theorem rows_self (V : (⟨2, ![R, C]⟩ : Shape).Idx → EReal) : Rows V fun p q => V (ix2 p q) := fun _ _ => rfl

/-- A description may be replaced by an equal one. -/
theorem Rows.congr {V : (⟨2, ![R, C]⟩ : Shape).Idx → EReal} {f g : Fin R → Fin C → EReal} (h : Rows V f)
    (e : ∀ p q, f p q = g p q) : Rows V g := fun p q => (h p q).trans (e p q)

/-- Two arrays with one description are equal. -/
theorem Rows.ext {V W : (⟨2, ![R, C]⟩ : Shape).Idx → EReal} {f : Fin R → Fin C → EReal} (hV : Rows V f) (hW : Rows W f) :
    V = W := funext fun j => by
  obtain ⟨p, q, rfl⟩ : ∃ (p : Fin R) (q : Fin C), j = ix2 p q := ⟨j 0, j 1, eq_ix2 j⟩
  exact (hV p q).trans (hW p q).symm

/-! ## Pointwise operations -/

theorem rows_addf {a b : FVec Ideal ⟨2, ![R, C]⟩ φ} {f g : Fin R → Fin C → EReal} (ha : Rows a f) (hb : Rows b g) :
    Rows (addf a b) fun p q => f p q + g p q := fun p q =>
  (addf_apply a b (ix2 p q)).trans (by rw [ha p q, hb p q])

theorem rows_subf {a b : FVec Ideal ⟨2, ![R, C]⟩ φ} {f g : Fin R → Fin C → EReal} (ha : Rows a f) (hb : Rows b g) :
    Rows (subf a b) fun p q => f p q - g p q := fun p q =>
  (subf_apply a b (ix2 p q)).trans (by rw [ha p q, hb p q])

theorem rows_mulf {a b : FVec Ideal ⟨2, ![R, C]⟩ φ} {f g : Fin R → Fin C → EReal} (ha : Rows a f) (hb : Rows b g) :
    Rows (mulf a b) fun p q => f p q * g p q := fun p q =>
  (mulf_apply a b (ix2 p q)).trans (by rw [ha p q, hb p q])

theorem rows_maximumf {a b : FVec Ideal ⟨2, ![R, C]⟩ φ} {f g : Fin R → Fin C → EReal} (ha : Rows a f) (hb : Rows b g) :
    Rows (maximumf a b) fun p q => max (f p q) (g p q) := fun p q =>
  (maximumf_apply a b (ix2 p q)).trans (by rw [ha p q, hb p q])

/-- A narrowing change of float format keeps every entry. -/
theorem rows_truncf {ψ : FTy} {a : FVec Ideal ⟨2, ![R, C]⟩ φ} {f : Fin R → Fin C → EReal} (h : ψ.bits < φ.bits)
    (ha : Rows a f) : Rows (truncf ψ a h : FVec Ideal ⟨2, ![R, C]⟩ ψ) f := fun p q =>
  (truncf_apply a h (ix2 p q)).trans (ha p q)

/-- The kernel's hyperbolic tangent. -/
theorem rows_tanh {a : FVec Ideal ⟨2, ![R, C]⟩ φ} {f : Fin R → Fin C → EReal} (ha : Rows a f) :
    Rows (tanh a) fun p q => Ideal.tanh (f p q) := fun p q =>
  (show tanh a (ix2 p q) = Ideal.tanh (a (ix2 p q)) from rfl).trans (by rw [ha p q])

/-- The host's hyperbolic tangent is the same function. -/
theorem rows_hostTanh {a : FVec Ideal ⟨2, ![R, C]⟩ φ} {f : Fin R → Fin C → EReal} (ha : Rows a f) :
    Rows (Host.tanh a) fun p q => Ideal.tanh (f p q) := fun p q =>
  (show Host.tanh a (ix2 p q) = Ideal.tanh (a (ix2 p q)) from rfl).trans (by rw [ha p q])

/-- The logistic function as one operation. -/
theorem rows_logistic {a : FVec Ideal ⟨2, ![R, C]⟩ φ} {f : Fin R → Fin C → EReal} (ha : Rows a f) :
    Rows (logistic a) fun p q => Ideal.logistic (f p q) := fun p q =>
  (show logistic a (ix2 p q) = Ideal.logistic (a (ix2 p q)) from rfl).trans (by rw [ha p q])

/-- The logistic function spelt out on the host, 1 / (1 + exp (-x)), with both ones the float word of 1.0: on the
    extended reals this IS the logistic function, at the infinities too. -/
theorem rows_hostLogistic {a u v : FVec Ideal ⟨2, ![R, C]⟩ .f32} {f : Fin R → Fin C → EReal} (ha : Rows a f)
    (hu : Rows u fun _ _ => Ideal.ofBits .f32 0x3F800000#32) (hv : Rows v fun _ _ => Ideal.ofBits .f32 0x3F800000#32) :
    Rows (Host.divf u (addf v (Host.exp (Host.negf a)))) fun p q => Ideal.logistic (f p q) := fun p q => by
  show FloatOps.hostDivf (u (ix2 p q)) (FloatOps.addf (v (ix2 p q)) (FloatOps.hostUnary .exp (FloatOps.hostNegf (a (ix2 p q))))) = _
  rw [hu p q, hv p q, ha p q, Ideal.ofBits_one_f32]
  rfl

/-! ## Products with a matrix on the right -/

/-- The matrix unit into a zero accumulator: row p of the result is row p of the left operand times the matrix. -/
theorem rows_matmul {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (matmul D prec l r (constant ⟨2, ![R, C]⟩ .f32 0x00000000#32)) fun p q => ∑ k : Fin K, f p k * w k q := fun p q =>
  (PlainDot.matmul_zero_apply hD prec l r p q).trans (Finset.sum_congr rfl fun k _ => by rw [hl p k, hr k q])

/-- The host's dot product: the same sum. -/
theorem rows_dotGeneral {K : ℕ} {φ₁ φ₂ : FTy} {D : DotDims ⟨2, ![R, K]⟩ ⟨2, ![K, C]⟩ ⟨2, ![R, C]⟩} (hD : PlainDot.IsPlain D)
    (prec : Option ContractPrecision) {l : FVec Ideal ⟨2, ![R, K]⟩ φ₁} {r : FVec Ideal ⟨2, ![K, C]⟩ φ₂}
    {f : Fin R → Fin K → EReal} {w : Fin K → Fin C → EReal} (hl : Rows l f) (hr : Rows r w) :
    Rows (Host.dotGeneral D prec l r) fun p q => ∑ k : Fin K, f p k * w k q := fun p q =>
  (PlainDot.dotGeneral_apply hD prec .single l r p q).trans (Finset.sum_congr rfl fun k _ => by rw [hl p k, hr k q])

/-! ## Pieces of stacked parameters -/

/-- Matrix number `o` of a stack of `n` matrices, cut out as a [1, K, C] block and viewed as [K, C]. -/
theorem rows_stackedMatrix {n K : ℕ} (W : (⟨3, ![n, K, C]⟩ : Shape).Idx → EReal) (o : Fin n)
    (hs : (⟨3, ![n, K, C]⟩ : Shape).Slices ![o.val, 0, 0] ⟨3, ![1, K, C]⟩)
    (hc : (⟨3, ![1, K, C]⟩ : Shape).ShapeCasts ⟨2, ![K, C]⟩) :
    Rows (shapeCast ⟨2, ![K, C]⟩ (extractStridedSlice ⟨3, ![1, K, C]⟩ ![o.val, 0, 0] W hs) hc) fun k q => W (ix3 o k q) :=
  fun k q => (shapeCast_1ab_ab_apply _ hc k q).trans
    (extractStridedSlice_apply _ W hs _ (ix3 o k q) fun a => match a with
      | ⟨0, _⟩ => rfl
      | ⟨1, _⟩ => (Nat.zero_add _).symm
      | ⟨2, _⟩ => (Nat.zero_add _).symm)

/-- A [1, 1, C] block viewed as a [1, C] row keeps its entries. -/
theorem shapeCast_11c_1c_apply {α : Type} (x : (⟨3, ![1, 1, C]⟩ : Shape).Idx → α)
    (h : (⟨3, ![1, 1, C]⟩ : Shape).ShapeCasts ⟨2, ![1, C]⟩) (p : Fin 1) (q : Fin C) :
    shapeCast ⟨2, ![1, C]⟩ x h (ix2 p q) = x (ix3 (0 : Fin 1) (0 : Fin 1) q) :=
  shapeCast_apply x h _ _ (by
    have hp : p.val = 0 := by omega
    rw [Shape.rowMajor_val_three, Shape.rowMajor_val_two]
    show (0 * 1 + 0) * C + q.val = p.val * C + q.val
    rw [hp])

/-- Row number `o` of a stack [n, 1, C] at column `q`, after it is cut out and viewed as a [1, C] row. -/
theorem stackedRow_apply {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩) (q : Fin C) :
    shapeCast ⟨2, ![1, C]⟩ (extractStridedSlice ⟨3, ![1, 1, C]⟩ ![o.val, 0, 0] b hs) hc (ix2 (0 : Fin 1) q)
      = b (ix3 o (0 : Fin 1) q) :=
  (shapeCast_11c_1c_apply _ hc 0 q).trans
    (extractStridedSlice_apply _ b hs _ (ix3 o (0 : Fin 1) q) fun a => match a with
      | ⟨0, _⟩ => rfl
      | ⟨1, _⟩ => rfl
      | ⟨2, _⟩ => (Nat.zero_add _).symm)

/-- That row repeated down `R` rows by the kernel's broadcast. -/
theorem rows_stackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).Broadcasts ⟨2, ![R, C]⟩) :
    Rows (broadcastTo ⟨2, ![R, C]⟩ (shapeCast ⟨2, ![1, C]⟩ (extractStridedSlice ⟨3, ![1, 1, C]⟩ ![o.val, 0, 0] b hs) hc) hb)
      fun _ q => b (ix3 o (0 : Fin 1) q) :=
  fun p q => (broadcastTo_1b_ab_apply _ hb p q).trans (stackedRow_apply b o hs hc q)

/-- A [1, C] row repeated down `R` rows by the host's broadcast along both axes. -/
theorem broadcastInDim_1c_rc_apply {α : Type} (v : (⟨2, ![1, C]⟩ : Shape).Idx → α)
    (h : (⟨2, ![1, C]⟩ : Shape).BroadcastsInDim ⟨2, ![R, C]⟩ ![0, 1]) (p : Fin R) (q : Fin C) :
    broadcastInDim ⟨2, ![R, C]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if C = 1 then 0 else q.val
    split
    · have := q.isLt; omega
    · rfl

/-- The stack's row repeated down `R` rows by the host's broadcast. -/
theorem rows_hostStackedRow {n : ℕ} (b : (⟨3, ![n, 1, C]⟩ : Shape).Idx → EReal) (o : Fin n)
    (hs : (⟨3, ![n, 1, C]⟩ : Shape).Slices ![o.val, 0, 0] ⟨3, ![1, 1, C]⟩)
    (hc : (⟨3, ![1, 1, C]⟩ : Shape).ShapeCasts ⟨2, ![1, C]⟩)
    (hb : (⟨2, ![1, C]⟩ : Shape).BroadcastsInDim ⟨2, ![R, C]⟩ ![0, 1]) :
    Rows (broadcastInDim ⟨2, ![R, C]⟩ ![0, 1] hb (shapeCast ⟨2, ![1, C]⟩ (extractStridedSlice ⟨3, ![1, 1, C]⟩ ![o.val, 0, 0] b hs) hc))
      fun _ q => b (ix3 o (0 : Fin 1) q) :=
  fun p q => (broadcastInDim_1c_rc_apply _ hb p q).trans (stackedRow_apply b o hs hc q)

/-! ## A scalar over the whole array -/

/-- The kernel's splat of a scalar. -/
theorem rows_broadcast (x : EReal) : Rows (broadcast ⟨2, ![R, C]⟩ x) fun _ _ => x := fun _ _ => rfl

/-- The host's broadcast of a rank-0 constant. -/
theorem rows_hostConstant (w : BitVec (FTy.bits φ)) (h : (⟨0, ![]⟩ : Shape).BroadcastsInDim ⟨2, ![R, C]⟩ ![]) :
    Rows (broadcastInDim ⟨2, ![R, C]⟩ ![] h (constant (F := Ideal) ⟨0, ![]⟩ φ w)) fun _ _ => Ideal.ofBits φ w :=
  fun p q => broadcastInDim_apply ![] h _ (ix2 p q) ix0 fun a => a.elim0

end Idealize.ShloMosaic.RowWise

end
-- ==== Proof.LibDenseLayer.lean ====
/-
  One dense layer with a rectifier in front, applied to every row of a batch on its own, read row by row.

  A layer takes a row h of K extended reals, a K-by-C weight matrix W and a bias row b, replaces every entry of h by
  its maximum with zero, and returns the row whose entry q is the sum over k of max (h k, 0) * W k q, plus b q
  (`layer`). The two theorems say that an [R, C] array computed from an [R, K] array in this way keeps a row-by-row
  description (`RowWise.Rows`), in the two spellings met:

  * `rows_kernel_layer` — a Pallas body: the rectified block narrowed to half width, the weight block (also half
    width, behind an identity shape cast) multiplied on the matrix unit from a zero accumulator, plus a [1, C] bias
    block (behind an identity shape cast) repeated down the rows;
  * `rows_host_layer` — jax on the host: the rectified array times the weight matrix by the dot product at full
    width, plus a [C] bias vector laid out as a [1, C] row and repeated down the rows.

  On extended reals both are the same layer, since a change of float format keeps every entry; so a network of such
  layers computed block of rows by block of rows equals the same network computed on the whole batch.
  Imports LibRowWise.lean, which imports LibPlainDot.lean: copy all three.
-/
import Idealize.ShloMosaic.Lib.ValueIdx
import Idealize.ShloMosaic.Lib.ValueLayout
import Idealize.ShloMosaic.Lib.Pipeline.Value
import Idealize.ShloMosaic.PureOps.Ideal.Laws
import proofs.«181629_j33629593927760_1_alg».proof.Proof.LibRowWise

noncomputable section

open scoped BigOperators

namespace Idealize.ShloMosaic.DenseLayer

open Idealize.ShloMosaic Idealize.ShloMosaic.ValueIdx Idealize.ShloMosaic.RowWise

/-- The float word of zero read as an extended real. -/
abbrev zero : EReal := Ideal.ofBits .f32 0x00000000#32

/-- The rectifier on a row: every entry replaced by its maximum with zero. -/
def relu {K : ℕ} (h : Fin K → EReal) : Fin K → EReal := fun k => max (h k) zero

/-- A dense layer on a row: the row times the weight matrix, plus the bias. -/
def dense {K C : ℕ} (h : Fin K → EReal) (W : Fin K → Fin C → EReal) (b : Fin C → EReal) : Fin C → EReal :=
  fun q => (∑ k : Fin K, h k * W k q) + b q

/-- One layer: the rectifier, then the dense layer. -/
def layer {K C : ℕ} (h : Fin K → EReal) (W : Fin K → Fin C → EReal) (b : Fin C → EReal) : Fin C → EReal :=
  dense (relu h) W b

/-- A length-C vector laid out by the host as a [1, C] row reads, at column q, the vector at q. -/
theorem broadcastInDim_c_1c_apply {α : Type} {C : ℕ} (b : (⟨1, ![C]⟩ : Shape).Idx → α)
    (h : (⟨1, ![C]⟩ : Shape).BroadcastsInDim ⟨2, ![1, C]⟩ ![1]) (p : Fin 1) (q : Fin C) :
    broadcastInDim ⟨2, ![1, C]⟩ ![1] h b (ix2 p q) = b (ix1 q) := by
  refine broadcastInDim_apply ![1] h b (ix2 p q) (ix1 q) fun ax => ?_
  match ax with
  | ⟨0, _⟩ =>
    show q.val = if C = 1 then 0 else q.val
    split
    · have := q.isLt; omega
    · rfl

/-- One layer as a kernel body spells it keeps a row-by-row description: the rectified rows narrowed to half width
    and multiplied by the weight block on the matrix unit from a zero accumulator, plus the [1, C] bias block
    repeated down the rows. -/
theorem rows_kernel_layer {R K C : ℕ} {D : DotDims ⟨2, ![R, K]⟩ ⟨2, ![K, C]⟩ ⟨2, ![R, C]⟩} (hD : PlainDot.IsPlain D)
    {h : FVec Ideal ⟨2, ![R, K]⟩ .f32} {f : Fin R → Fin K → EReal} (hh : Rows h f)
    (w : FVec Ideal ⟨2, ![K, C]⟩ .bf16) (hw : (⟨2, ![K, C]⟩ : Shape).ShapeCasts ⟨2, ![K, C]⟩)
    (b : FVec Ideal ⟨2, ![1, C]⟩ .f32) (hb : (⟨2, ![1, C]⟩ : Shape).ShapeCasts ⟨2, ![1, C]⟩)
    (hbb : (⟨2, ![1, C]⟩ : Shape).Broadcasts ⟨2, ![R, C]⟩) (hlt : FTy.bf16.bits < FTy.f32.bits) :
    Rows (addf (matmul D none (truncf .bf16 (maximumf h (broadcast ⟨2, ![R, K]⟩ (Scalar.ofBits .f32 0x00000000#32))) hlt)
        (shapeCast ⟨2, ![K, C]⟩ w hw) (constant ⟨2, ![R, C]⟩ .f32 0x00000000#32))
      (broadcastTo ⟨2, ![R, C]⟩ (shapeCast ⟨2, ![1, C]⟩ b hb) hbb))
      fun p => layer (f p) (fun k q => w (ix2 k q)) (fun q => b (ix2 (0 : Fin 1) q)) := by
  rw [shapeCast_self, shapeCast_self]
  exact rows_addf (rows_matmul hD none (rows_truncf hlt (rows_maximumf hh (rows_broadcast _))) (rows_self w))
    (fun p q => broadcastTo_1b_ab_apply b hbb p q)

/-- The same layer as the host spells it: the rectified rows times the weight matrix by the dot product, plus the
    bias vector laid out as a row and repeated down the rows. -/
theorem rows_host_layer {R K C : ℕ} {D : DotDims ⟨2, ![R, K]⟩ ⟨2, ![K, C]⟩ ⟨2, ![R, C]⟩} (hD : PlainDot.IsPlain D)
    {h : FVec Ideal ⟨2, ![R, K]⟩ .f32} {f : Fin R → Fin K → EReal} (hh : Rows h f)
    (W : FVec Ideal ⟨2, ![K, C]⟩ .f32) (b : FVec Ideal ⟨1, ![C]⟩ .f32)
    (hz : (⟨0, ![]⟩ : Shape).BroadcastsInDim ⟨2, ![R, K]⟩ ![])
    (h1 : (⟨1, ![C]⟩ : Shape).BroadcastsInDim ⟨2, ![1, C]⟩ ![1])
    (h2 : (⟨2, ![1, C]⟩ : Shape).BroadcastsInDim ⟨2, ![R, C]⟩ ![0, 1]) :
    Rows (addf (Host.dotGeneral D none
          (maximumf h (broadcastInDim ⟨2, ![R, K]⟩ ![] hz (constant (F := Ideal) ⟨0, ![]⟩ .f32 0x00000000#32))) W)
      (broadcastInDim ⟨2, ![R, C]⟩ ![0, 1] h2 (broadcastInDim ⟨2, ![1, C]⟩ ![1] h1 b)))
      fun p => layer (f p) (fun k q => W (ix2 k q)) (fun q => b (ix1 q)) :=
  rows_addf (rows_dotGeneral hD none (rows_maximumf hh (rows_hostConstant _ hz)) (rows_self W))
    (fun p q => (broadcastInDim_1c_rc_apply _ h2 p q).trans (broadcastInDim_c_1c_apply b h1 0 q))

end Idealize.ShloMosaic.DenseLayer

end
-- ==== Proof.LibRowPieces.lean ====
/-
  More pieces for describing an [R, C] array of extended reals row by row (`RowWise.Rows`), and the one law that
  joins "lay two arrays side by side, then multiply by one weight matrix" with "multiply each array by its own
  columns of the weight matrix, then add":

  * an identity shape cast; a transposed [a, b] matrix (entry (p, q) is the matrix at (q, p));
  * two arrays [R, a] and [R, b] laid side by side into [R, c], c = a + b: column l is the first array's column l
    when l < a and the second array's column l - a otherwise;
  * a window of b columns starting at column o, cut out of an [n, c] matrix;
  * a length-C vector viewed as a [1, C] row; a [1, C] bias row repeated down R rows, in the kernel's spelling
    (behind an identity shape cast) and in the host's (a [C] vector laid out as a row first);
  * `sum_split`: a sum over c = a + b terms is the sum of its first a terms plus the sum of its last b terms, in any
    commutative monoid (no finiteness is needed: only the order of the terms changes);
  * `sum_sideBySide`: the same for the rectified side-by-side row against a weight column, which is the shape the
    law takes for a dense layer fed by a concatenation.
-/
import Idealize.ShloMosaic.Lib.ValueIdx
import Idealize.ShloMosaic.Lib.ValueLayout
import Idealize.ShloMosaic.Lib.Pipeline.Value
import proofs.«181629_j33629593927760_1_alg».proof.Proof.LibRowWise
import proofs.«181629_j33629593927760_1_alg».proof.Proof.LibDenseLayer

noncomputable section

open scoped BigOperators

namespace Idealize.ShloMosaic.RowWise

open Idealize.ShloMosaic Idealize.ShloMosaic.ValueIdx

variable {R C : ℕ}

/-- An identity shape cast keeps the array. -/
theorem rows_shapeCast_self (V : (⟨2, ![R, C]⟩ : Shape).Idx → EReal) (h : (⟨2, ![R, C]⟩ : Shape).ShapeCasts ⟨2, ![R, C]⟩) :
    Rows (shapeCast ⟨2, ![R, C]⟩ V h) fun p q => V (ix2 p q) := by
  rw [shapeCast_self]; exact rows_self V

/-- The transpose of an [a, b] matrix holds, at (p, q), the matrix at (q, p). -/
theorem rows_transpose {a b : ℕ} (x : (⟨2, ![a, b]⟩ : Shape).Idx → EReal)
    (h : (⟨2, ![a, b]⟩ : Shape).Transposes [1, 0] ⟨2, ![b, a]⟩) :
    Rows (transpose ⟨2, ![b, a]⟩ [1, 0] x h) fun p q => x (ix2 q p) :=
  fun p q => PlainDot.transpose_apply2 x h p q

/-! ## Two arrays side by side -/

/-- Column `l` of the side-by-side row built from a row `f` of `a` entries and a row `g` of `b` entries. -/
def sideBySide {a b c : ℕ} (hc : c = a + b) (f : Fin a → EReal) (g : Fin b → EReal) : Fin c → EReal :=
  fun l => if hl : l.val < a then f ⟨l.val, hl⟩ else g ⟨l.val - a, by have := l.isLt; omega⟩

/-- Two arrays joined along the columns: the row-by-row description is the side-by-side row. -/
theorem rows_concat {a b c : ℕ} (hc : c = a + b) {x : (⟨2, ![R, a]⟩ : Shape).Idx → EReal}
    {y : (⟨2, ![R, b]⟩ : Shape).Idx → EReal} {f : Fin R → Fin a → EReal} {g : Fin R → Fin b → EReal}
    (hx : Rows x f) (hy : Rows y g)
    (h : Shape.Concatenates [(⟨2, ![R, a]⟩ : Shape), ⟨2, ![R, b]⟩] ⟨2, ![R, c]⟩ 1) :
    Rows (concatenate ⟨2, ![R, c]⟩ 1 [⟨⟨2, ![R, a]⟩, x⟩, ⟨⟨2, ![R, b]⟩, y⟩] h) fun p => sideBySide hc (f p) (g p) := by
  intro p l
  dsimp only [sideBySide]
  by_cases hl : l.val < a
  · rw [dif_pos hl, ← hx p ⟨l.val, hl⟩]
    exact concatenate_pair_apply_left 1 x y h (ix2 p l) rfl (ix2 p ⟨l.val, hl⟩)
      (fun bb => match bb with | ⟨0, _⟩ => rfl | ⟨1, _⟩ => rfl)
  · have hlb : l.val - a < b := by have := l.isLt; omega
    rw [dif_neg hl, ← hy p ⟨l.val - a, hlb⟩]
    refine concatenate_pair_apply_right 1 x y h (ix2 p l) rfl rfl (ix2 p ⟨l.val - a, hlb⟩) ?_ ?_
    · intro bb hb
      match bb, hb with
      | ⟨0, _⟩, _ => rfl
      | ⟨1, _⟩, hb => exact absurd rfl hb
    · show l.val - a + a = l.val
      omega

/-! ## Pieces of parameters -/

/-- A window of `b` columns starting at column `o`, cut out of an [n, c] matrix: entry (j, l) is the matrix at
    (j, o + l). -/
theorem slice_cols_apply {α : Type} {n c b : ℕ} (o : ℕ) (x : (⟨2, ![n, c]⟩ : Shape).Idx → α)
    (h : (⟨2, ![n, c]⟩ : Shape).Slices ![0, o] ⟨2, ![n, b]⟩) (j : Fin n) (l : Fin b) (hl : o + l.val < c) :
    extractStridedSlice ⟨2, ![n, b]⟩ ![0, o] x h (ix2 j l) = x (ix2 j ⟨o + l.val, hl⟩) :=
  extractStridedSlice_apply _ x h _ (ix2 j ⟨o + l.val, hl⟩) fun ax => match ax with
    | ⟨0, _⟩ => (Nat.zero_add _).symm
    | ⟨1, _⟩ => rfl

/-- A length-C vector viewed as a [1, C] row keeps its entries. -/
theorem shapeCast_c_1c_apply {α : Type} (v : (⟨1, ![C]⟩ : Shape).Idx → α)
    (h : (⟨1, ![C]⟩ : Shape).ShapeCasts ⟨2, ![1, C]⟩) (p : Fin 1) (q : Fin C) :
    shapeCast ⟨2, ![1, C]⟩ v h (ix2 p q) = v (ix1 q) :=
  shapeCast_apply v h _ _ (by
    have hp : p.val = 0 := by omega
    rw [Shape.rowMajor_val_two, Shape.rowMajor_val_one]
    show q.val = p.val * C + q.val
    rw [hp]; omega)

/-- The kernel's bias: a [1, C] block behind an identity shape cast, repeated down R rows. -/
theorem rows_kernelBias (b : (⟨2, ![1, C]⟩ : Shape).Idx → EReal) (hb : (⟨2, ![1, C]⟩ : Shape).ShapeCasts ⟨2, ![1, C]⟩)
    (hbb : (⟨2, ![1, C]⟩ : Shape).Broadcasts ⟨2, ![R, C]⟩) :
    Rows (broadcastTo ⟨2, ![R, C]⟩ (shapeCast ⟨2, ![1, C]⟩ b hb) hbb) fun _ q => b (ix2 (0 : Fin 1) q) := by
  rw [shapeCast_self]
  exact fun p q => broadcastTo_1b_ab_apply b hbb p q

/-- The host's bias: a [C] vector laid out as a [1, C] row and repeated down R rows. -/
theorem rows_hostBias (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1]) :
    Rows (broadcastInDim ⟨2, ![R, C]⟩ ![0, 1] h2 (broadcastInDim ⟨2, ![1, C]⟩ ![1] h1 b)) fun _ q => b (ix1 q) :=
  fun p q => (broadcastInDim_1c_rc_apply _ h2 p q).trans (DenseLayer.broadcastInDim_c_1c_apply b h1 0 q)

/-! ## A sum over a + b terms -/

/-- A sum over c = a + b terms is the sum of the first a terms plus the sum of the last b terms. -/
theorem sum_split {M : Type*} [AddCommMonoid M] {a b c : ℕ} (hc : c = a + b) (F : Fin c → M) :
    ∑ l : Fin c, F l
      = (∑ l : Fin a, F ⟨l.val, by have := l.isLt; omega⟩) + ∑ l : Fin b, F ⟨a + l.val, by have := l.isLt; omega⟩ := by
  subst hc
  rw [Fin.sum_univ_add]
  rfl

/-- The side-by-side row, rectified against `z` and multiplied term by term with a weight column `w`, sums to the
    first row's rectified products with the first `a` weights plus the second row's with the last `b` weights. -/
theorem sum_sideBySide {a b c : ℕ} (hc : c = a + b) (f : Fin a → EReal) (g : Fin b → EReal) (z : EReal)
    (w : Fin c → EReal) :
    ∑ l : Fin c, max (sideBySide hc f g l) z * w l
      = (∑ l : Fin a, max (f l) z * w ⟨l.val, by have := l.isLt; omega⟩)
        + ∑ l : Fin b, max (g l) z * w ⟨a + l.val, by have := l.isLt; omega⟩ := by
  rw [sum_split hc]
  congr 1
  · refine Finset.sum_congr rfl fun l _ => ?_
    unfold sideBySide
    rw [dif_pos (show (⟨l.val, by have := l.isLt; omega⟩ : Fin c).val < a from l.isLt)]
  · refine Finset.sum_congr rfl fun l _ => ?_
    unfold sideBySide
    rw [dif_neg (show ¬ (⟨a + l.val, by have := l.isLt; omega⟩ : Fin c).val < a from by show ¬ a + l.val < a; omega)]
    have e : (⟨a + l.val - a, by have := l.isLt; omega⟩ : Fin b) = l := Fin.ext (Nat.add_sub_cancel_left a l.val)
    show max (g ⟨a + l.val - a, _⟩) z * _ = _
    rw [e]

end Idealize.ShloMosaic.RowWise

end
-- ==== Proof.Spec.lean ====
/-
  The score of one (user, item) pair, as a function of that pair's two embedding rows, its two feature rows and the
  network's parameters — the mathematics both programs compute, row by row.

  Write r(x) = max (x, 0). A residual block takes an embedding row e (a entries), a feature row f (b entries), two weight
  blocks A (a by o) and B (b by o) and a bias row, and returns
      dense2 e f A B bias j = (sum over l < a of r(e l) * A l j  +  sum over l < b of r(f l) * B l j) + bias j,
  to which the block adds e j (`tower`). The head applies `dense2` to the user's and the item's tower rows with the two
  halves of the hidden layer's weights, rectifies, and takes the product with the last weight row plus the last bias
  (`score`). The kernel computes exactly this per row. The reference lays e and f side by side and multiplies once
  by the whole weight matrix: `denseCat`; the two agree because a sum over a + b terms is the sum of its first a and
  its last b terms (`denseCat_eq`), which holds for any extended reals: no term is moved across a product, so no
  finiteness is used.

  `G` is the batch's result: entry (p, q) of the [16384, 1] output is the score of row p of the four activation arrays.
-/
import Idealize.ShloMosaic.Lib.ValueIdx
import Idealize.ShloMosaic.PureOps.Ideal
import proofs.«181629_j33629593927760_1_alg».proof.Proof.LibRowPieces

noncomputable section

open scoped BigOperators

namespace Cert.Recommender

open Idealize.ShloMosaic Idealize.ShloMosaic.ValueIdx Idealize.ShloMosaic.RowWise

/-- The float word of zero read as an extended real. -/
abbrev zero : EReal := Ideal.ofBits .f32 0x00000000#32

/-- Two rectified rows against their own weight blocks, plus a bias. -/
def dense2 {a b o : ℕ} (e : Fin a → EReal) (f : Fin b → EReal) (A : Fin a → Fin o → EReal) (B : Fin b → Fin o → EReal)
    (bias : Fin o → EReal) : Fin o → EReal :=
  fun j => ((∑ l : Fin a, max (e l) zero * A l j) + ∑ l : Fin b, max (f l) zero * B l j) + bias j

/-- The side-by-side row, rectified, against ONE weight matrix with a + b rows, plus a bias. -/
def denseCat {a b c o : ℕ} (hc : c = a + b) (e : Fin a → EReal) (f : Fin b → EReal) (W : Fin c → Fin o → EReal)
    (bias : Fin o → EReal) : Fin o → EReal :=
  fun j => (∑ l : Fin c, max (sideBySide hc e f l) zero * W l j) + bias j

/-- One product with the whole weight matrix is the two products with its first a and its last b rows. -/
theorem denseCat_eq {a b c o : ℕ} (hc : c = a + b) (e : Fin a → EReal) (f : Fin b → EReal) (W : Fin c → Fin o → EReal)
    (bias : Fin o → EReal) (j : Fin o) :
    denseCat hc e f W bias j
      = dense2 e f (fun l => W ⟨l.val, by have := l.isLt; omega⟩) (fun l => W ⟨a + l.val, by have := l.isLt; omega⟩) bias j := by
  unfold denseCat dense2
  rw [sum_sideBySide hc e f zero fun l => W l j]

/-- A residual block: the dense layer's row plus the embedding row it started from. -/
def tower {a b : ℕ} (e : Fin a → EReal) (f : Fin b → EReal) (A : Fin a → Fin a → EReal) (B : Fin b → Fin a → EReal)
    (bias : Fin a → EReal) : Fin a → EReal :=
  fun j => dense2 e f A B bias j + e j

/-- The score of one pair. -/
def score (ue ie : Fin 64 → EReal) (uf : Fin 21 → EReal) (itf : Fin 39 → EReal)
    (Au : Fin 64 → Fin 64 → EReal) (Bu : Fin 21 → Fin 64 → EReal) (cu : Fin 64 → EReal)
    (Ai : Fin 64 → Fin 64 → EReal) (Bi : Fin 39 → Fin 64 → EReal) (ci : Fin 64 → EReal)
    (A1 B1 : Fin 64 → Fin 256 → EReal) (c1 : Fin 256 → EReal) (w2 : Fin 256 → EReal) (c2 : EReal) : EReal :=
  (∑ k : Fin 256, max (dense2 (tower ue uf Au Bu cu) (tower ie itf Ai Bi ci) A1 B1 c1 k) zero * w2 k) + c2

/-- Row p, column q of the batch's result, from the whole arrays: the gathered embedding rows `UE`, `IE`, the feature
    rows, and the parameters as the entry point receives them (each weight matrix with one row per OUTPUT). -/
def rowScore (UE IE : (⟨2, ![16384, 64]⟩ : Shape).Idx → EReal) (UF : (⟨2, ![16384, 21]⟩ : Shape).Idx → EReal)
    (ITF : (⟨2, ![16384, 39]⟩ : Shape).Idx → EReal)
    (Wu : (⟨2, ![64, 85]⟩ : Shape).Idx → EReal) (bu : (⟨1, ![64]⟩ : Shape).Idx → EReal)
    (Wi : (⟨2, ![64, 103]⟩ : Shape).Idx → EReal) (bi : (⟨1, ![64]⟩ : Shape).Idx → EReal)
    (W1 : (⟨2, ![256, 128]⟩ : Shape).Idx → EReal) (b1 : (⟨1, ![256]⟩ : Shape).Idx → EReal)
    (W2 : (⟨2, ![1, 256]⟩ : Shape).Idx → EReal) (b2 : (⟨1, ![1]⟩ : Shape).Idx → EReal) (p : Fin 16384) (q : Fin 1) : EReal :=
  score (fun l => UE (ix2 p l)) (fun l => IE (ix2 p l)) (fun l => UF (ix2 p l)) (fun l => ITF (ix2 p l))
    (fun l j => Wu (ix2 j ⟨l.val, by have := l.isLt; omega⟩)) (fun l j => Wu (ix2 j ⟨64 + l.val, by have := l.isLt; omega⟩))
    (fun j => bu (ix1 j))
    (fun l j => Wi (ix2 j ⟨l.val, by have := l.isLt; omega⟩)) (fun l j => Wi (ix2 j ⟨64 + l.val, by have := l.isLt; omega⟩))
    (fun j => bi (ix1 j))
    (fun l k => W1 (ix2 k ⟨l.val, by have := l.isLt; omega⟩)) (fun l k => W1 (ix2 k ⟨64 + l.val, by have := l.isLt; omega⟩))
    (fun k => b1 (ix1 k))
    (fun k => W2 (ix2 q k)) (b2 (ix1 q))

/-- The batch's result as one array. -/
def G (UE IE : (⟨2, ![16384, 64]⟩ : Shape).Idx → EReal) (UF : (⟨2, ![16384, 21]⟩ : Shape).Idx → EReal)
    (ITF : (⟨2, ![16384, 39]⟩ : Shape).Idx → EReal)
    (Wu : (⟨2, ![64, 85]⟩ : Shape).Idx → EReal) (bu : (⟨1, ![64]⟩ : Shape).Idx → EReal)
    (Wi : (⟨2, ![64, 103]⟩ : Shape).Idx → EReal) (bi : (⟨1, ![64]⟩ : Shape).Idx → EReal)
    (W1 : (⟨2, ![256, 128]⟩ : Shape).Idx → EReal) (b1 : (⟨1, ![256]⟩ : Shape).Idx → EReal)
    (W2 : (⟨2, ![1, 256]⟩ : Shape).Idx → EReal) (b2 : (⟨1, ![1]⟩ : Shape).Idx → EReal) :
    (⟨2, ![16384, 1]⟩ : Shape).Idx → EReal :=
  fun i => rowScore UE IE UF ITF Wu bu Wi bi W1 b1 W2 b2 (i 0) (i 1)

/-- `G` is described row by row by `rowScore`. -/
theorem rows_G (UE IE : (⟨2, ![16384, 64]⟩ : Shape).Idx → EReal) (UF : (⟨2, ![16384, 21]⟩ : Shape).Idx → EReal)
    (ITF : (⟨2, ![16384, 39]⟩ : Shape).Idx → EReal)
    (Wu : (⟨2, ![64, 85]⟩ : Shape).Idx → EReal) (bu : (⟨1, ![64]⟩ : Shape).Idx → EReal)
    (Wi : (⟨2, ![64, 103]⟩ : Shape).Idx → EReal) (bi : (⟨1, ![64]⟩ : Shape).Idx → EReal)
    (W1 : (⟨2, ![256, 128]⟩ : Shape).Idx → EReal) (b1 : (⟨1, ![256]⟩ : Shape).Idx → EReal)
    (W2 : (⟨2, ![1, 256]⟩ : Shape).Idx → EReal) (b2 : (⟨1, ![1]⟩ : Shape).Idx → EReal) :
    Rows (G UE IE UF ITF Wu bu Wi bi W1 b1 W2 b2) (rowScore UE IE UF ITF Wu bu Wi bi W1 b1 W2 b2) :=
  fun _ _ => rfl

end Cert.Recommender

end
-- ==== Proof.KernelRows.lean ====
/-
  The kernel's body, row by row. One grid step holds a block of 2048 rows of each activation array and the whole of
  every parameter array; what it stores is, in row p, the score (`Recommender.score`) of row p of its four
  activation blocks under the parameters it holds — each weight block read transposed (the body multiplies by the
  block's transpose), each bias block read in its single row.

  Each of the body's pure values is described row by row (`RowWise.Rows`) from the descriptions of the values it
  reads: the user's tower, the item's rectified features, the item's embedding product, then the head.
-/
import proofs.«181629_j33629593927760_1_alg».proof.Proof.Gen.KernelIdeal.Skeleton
import proofs.«181629_j33629593927760_1_alg».proof.Proof.Spec

noncomputable section

open scoped BigOperators

namespace Cert.Recommender.KernelBody

open Cert.KernelIdeal Cert.KernelIdeal.Gen Cert.KernelIdeal.Facts₀ Cert.KernelIdeal.Facts
open Idealize.ShloMosaic Idealize.ShloMosaic.ValueIdx Idealize.ShloMosaic.RowWise

/-! ## The body's five products are plain matrix products -/

theorem plain_64_64 : PlainDot.IsPlain dot_S2048x64_S64x64_S2048x64_1_0_0_1_n_n := ⟨rfl, rfl, rfl, rfl, rfl, rfl⟩
theorem plain_21_64 : PlainDot.IsPlain dot_S2048x21_S21x64_S2048x64_1_0_0_1_n_n := ⟨rfl, rfl, rfl, rfl, rfl, rfl⟩
theorem plain_39_64 : PlainDot.IsPlain dot_S2048x39_S39x64_S2048x64_1_0_0_1_n_n := ⟨rfl, rfl, rfl, rfl, rfl, rfl⟩
theorem plain_64_256 : PlainDot.IsPlain dot_S2048x64_S64x256_S2048x256_1_0_0_1_n_n := ⟨rfl, rfl, rfl, rfl, rfl, rfl⟩
theorem plain_256_1 : PlainDot.IsPlain dot_S2048x256_S256x1_S2048x1_1_0_0_1_n_n := ⟨rfl, rfl, rfl, rfl, rfl, rfl⟩

/-! ## The user's tower -/

/-- Row p of the user's tower block is the residual block of row p of the embedding and feature blocks. -/
theorem rows_userTower (x0 : Vec Ideal S2048x64 .f32) (x2 : Vec Ideal S2048x21 .f32) (x4 : Vec Ideal S64x64 .bf16)
    (x5 : Vec Ideal S64x21 .bf16) (x6 : Vec Ideal S1x64 .f32) :
    Rows (k0_pay3 (F := Ideal) x0 x2 x4 x5 x6) fun p =>
      tower (fun l => x0 (ix2 p l)) (fun l => x2 (ix2 p l)) (fun l j => x4 (ix2 j l)) (fun l j => x5 (ix2 j l))
        (fun j => x6 (ix2 (0 : Fin 1) j)) := by
  unfold k0_pay3
  dsimp only
  simp only [shapeCast_self]
  exact (rows_addf (rows_addf (rows_addf
      (rows_matmul plain_64_64 none (rows_truncf Facts₀.bitsLt_bf16_f32 (rows_maximumf (rows_self x0) (rows_broadcast _)))
        (rows_transpose x4 _))
      (rows_matmul plain_21_64 none (rows_truncf Facts₀.bitsLt_bf16_f32 (rows_maximumf (rows_self x2) (rows_broadcast _)))
        (rows_transpose x5 _)))
      (fun p q => broadcastTo_1b_ab_apply x6 Facts₀.broadcasts_S1x64_S2048x64 p q)) (rows_self x0)).congr fun _ _ => rfl

/-! ## The item's side, as far as the first part of the body takes it -/

/-- The item's feature block, rectified (the narrowing to half width keeps every entry). -/
theorem rows_itemFeatures (x3 : Vec Ideal S2048x39 .f32) :
    Rows (k0_pay4 (F := Ideal) x3) fun p m => max (x3 (ix2 p m)) zero := by
  unfold k0_pay4
  dsimp only
  exact (rows_truncf Facts₀.bitsLt_bf16_f32 (rows_maximumf (rows_self x3) (rows_broadcast _))).congr fun _ _ => rfl

/-- The item's rectified embedding block times its weight block. -/
theorem rows_itemEmbProduct (x1 : Vec Ideal S2048x64 .f32) (x7 : Vec Ideal S64x64 .bf16) :
    Rows (k0_pay5 (F := Ideal) x1 x7) fun p j => ∑ l : Fin 64, max (x1 (ix2 p l)) zero * x7 (ix2 j l) := by
  unfold k0_pay5 k0_pay2
  dsimp only
  simp only [shapeCast_self]
  exact (rows_matmul plain_64_64 none (rows_truncf Facts₀.bitsLt_bf16_f32 (rows_maximumf (rows_self x1) (rows_broadcast _)))
    (rows_transpose x7 _)).congr fun _ _ => rfl

/-! ## The head -/

/-- The second part of the body: from the item's embedding block (`v3`), the user's tower (`v25`), the item's rectified
    features (`v31`) and the item's embedding product (`v35`), however those are described, the item's tower is finished
    and the head applied. -/
theorem rows_head {v3 v25 v35 : FVec Ideal S2048x64 .f32} {v31 : FVec Ideal S2048x39 .bf16}
    {e uh s : Fin 2048 → Fin 64 → EReal} {g : Fin 2048 → Fin 39 → EReal}
    (h3 : Rows v3 e) (h25 : Rows v25 uh) (h31 : Rows v31 g) (h35 : Rows v35 s)
    (x8 : Vec Ideal S64x39 .bf16) (x9 : Vec Ideal S1x64 .f32) (x10 x11 : Vec Ideal S256x64 .bf16)
    (x12 : Vec Ideal S1x256 .f32) (x13 : Vec Ideal S1x256 .bf16) :
    Rows (k0_pay6 (F := Ideal) v3 v25 v31 v35 x8 x9 x10 x11 x12 x13) fun p q =>
      ∑ k : Fin 256, max (((∑ l : Fin 64, max (uh p l) zero * x10 (ix2 k l))
          + ∑ l : Fin 64, max (((s p l + ∑ m : Fin 39, g p m * x8 (ix2 l m)) + x9 (ix2 (0 : Fin 1) l)) + e p l) zero * x11 (ix2 k l))
          + x12 (ix2 (0 : Fin 1) k)) zero * x13 (ix2 q k) := by
  unfold k0_pay6
  dsimp only
  simp only [shapeCast_self]
  exact (rows_matmul plain_256_1 none
    (rows_truncf Facts₀.bitsLt_bf16_f32 (rows_maximumf (rows_addf (rows_addf
        (rows_matmul plain_64_256 none (rows_truncf Facts₀.bitsLt_bf16_f32 (rows_maximumf h25 (rows_broadcast _))) (rows_transpose x10 _))
        (rows_matmul plain_64_256 none (rows_truncf Facts₀.bitsLt_bf16_f32 (rows_maximumf
            (rows_addf (rows_addf (rows_addf h35 (rows_matmul plain_39_64 none h31 (rows_transpose x8 _)))
              (fun p q => broadcastTo_1b_ab_apply x9 Facts₀.broadcasts_S1x64_S2048x64 p q)) h3)
            (rows_broadcast _))) (rows_transpose x11 _)))
        (fun p q => broadcastTo_1b_ab_apply x12 Facts₀.broadcasts_S1x256_S2048x256 p q))
      (rows_broadcast _)))
    (rows_transpose x13 _)).congr fun _ _ => rfl

/-- What one grid step stores: in row p, the score of row p of the four activation blocks under the parameter blocks. -/
theorem rows_body (x0 x1 : Vec Ideal S2048x64 .f32) (x2 : Vec Ideal S2048x21 .f32) (x3 : Vec Ideal S2048x39 .f32)
    (x4 : Vec Ideal S64x64 .bf16) (x5 : Vec Ideal S64x21 .bf16) (x6 : Vec Ideal S1x64 .f32)
    (x7 : Vec Ideal S64x64 .bf16) (x8 : Vec Ideal S64x39 .bf16) (x9 : Vec Ideal S1x64 .f32)
    (x10 x11 : Vec Ideal S256x64 .bf16) (x12 : Vec Ideal S1x256 .f32) (x13 : Vec Ideal S1x256 .bf16)
    (x14 : Vec Ideal S1x1 .f32) :
    Rows (k0_pay1 (F := Ideal) (k0_pay6 (k0_pay2 x1) (k0_pay3 x0 x2 x4 x5 x6) (k0_pay4 x3) (k0_pay5 x1 x7) x8 x9 x10 x11 x12 x13)
        (k0_pay7 x14)) fun p q =>
      score (fun l => x0 (ix2 p l)) (fun l => x1 (ix2 p l)) (fun l => x2 (ix2 p l)) (fun l => x3 (ix2 p l))
        (fun l j => x4 (ix2 j l)) (fun l j => x5 (ix2 j l)) (fun j => x6 (ix2 (0 : Fin 1) j))
        (fun l j => x7 (ix2 j l)) (fun l j => x8 (ix2 j l)) (fun j => x9 (ix2 (0 : Fin 1) j))
        (fun l k => x10 (ix2 k l)) (fun l k => x11 (ix2 k l)) (fun k => x12 (ix2 (0 : Fin 1) k))
        (fun k => x13 (ix2 q k)) (x14 (ix2 (0 : Fin 1) q)) := by
  have hie : Rows (k0_pay2 (F := Ideal) x1) fun p l => x1 (ix2 p l) := by
    unfold k0_pay2; dsimp only; rw [shapeCast_self]; exact rows_self x1
  have hb : Rows (k0_pay7 (F := Ideal) x14) fun _ q => x14 (ix2 (0 : Fin 1) q) := by
    unfold k0_pay7; dsimp only; rw [shapeCast_self]
    exact fun p q => broadcastTo_1b_ab_apply x14 Facts₀.broadcasts_S1x1_S2048x1 p q
  unfold k0_pay1
  dsimp only
  exact (rows_addf (rows_head hie (rows_userTower x0 x2 x4 x5 x6) (rows_itemFeatures x3) (rows_itemEmbProduct x1 x7)
    x8 x9 x10 x11 x12 x13) hb).congr fun _ _ => rfl

end Cert.Recommender.KernelBody

end
-- ==== Proof.Operands.lean ====
/-
  What the kernel's region finds in its operand arrays, in terms of the memory the program was launched with. Before
  the region the program gathers the embedding rows, cuts each weight matrix into its first 64 columns and the rest,
  narrows the pieces to half width (which keeps every entry on the extended reals), and views each bias vector as a
  one-row matrix. So:

  * the two gathered arrays are the gathers of the launch tables by the (wrapped) id columns (`userRows`, `itemRows`);
  * entry (j, l) of a weight piece is the whole matrix at (j, l), or at (j, 64 + l) for a second piece;
  * entry (0, j) of a bias row is the bias vector at j.
-/
import proofs.«181629_j33629593927760_1_alg».proof.Proof.Gen.KernelIdeal.Frame
import Idealize.ShloMosaic.Lib.StableHlo.Run
import proofs.«181629_j33629593927760_1_alg».proof.Proof.LibRowPieces

noncomputable section

namespace Cert.Recommender.Operands

open Cert.KernelIdeal Cert.KernelIdeal.Gen
open Idealize.ShloMosaic Idealize.ShloMosaic.TcCoe Idealize.SL.Sem Idealize.ShloMosaic.StableHlo
open Idealize.ShloMosaic.ValueIdx Idealize.ShloMosaic.RowWise

variable (m : (ℓ : Loc nD τ sig) → Buf (Elt Ideal) ℓ)

/-- The user embedding rows the program gathers: row p is the table's row at user p's id, a negative id counted from
    the table's end. -/
def userRows (c : Dev nD) : S16384x64.Idx → EReal :=
  Host.gather gather_S1000001x64_S16384x1_S16384x64_1_0_n_n_0_1_164 (m (c, Proc.tc.devRef main_arg4))
    (broadcastInDim S16384x1 ![0] bcast_S16384_S16384x1_0
      (select (cmpi CmpIPredicate.slt (m (c, Proc.tc.devRef main_arg0)) (broadcastInDim S16384 ![] bcast_S_S16384 (constantI S_ 32 0#32)))
        (addi (m (c, Proc.tc.devRef main_arg0)) (broadcastInDim S16384 ![] bcast_S_S16384 (constantI S_ 32 1000001#32)))
        (m (c, Proc.tc.devRef main_arg0))))

/-- The item embedding rows the program gathers. -/
def itemRows (c : Dev nD) : S16384x64.Idx → EReal :=
  Host.gather gather_S500001x64_S16384x1_S16384x64_1_0_n_n_0_1_164 (m (c, Proc.tc.devRef main_arg5))
    (broadcastInDim S16384x1 ![0] bcast_S16384_S16384x1_0
      (select (cmpi CmpIPredicate.slt (m (c, Proc.tc.devRef main_arg1)) (broadcastInDim S16384 ![] bcast_S_S16384 (constantI S_ 32 0#32)))
        (addi (m (c, Proc.tc.devRef main_arg1)) (broadcastInDim S16384 ![] bcast_S_S16384 (constantI S_ 32 500001#32)))
        (m (c, Proc.tc.devRef main_arg1))))

set_option maxHeartbeats 1000000 in
theorem V_userRows (c : Dev nD) : (V m c main_v6 : S16384x64.Idx → EReal) = userRows m c := by
  dsimp only [Gen.V, Gen.hostOps0]
  after_results_simp
  rfl

set_option maxHeartbeats 1000000 in
theorem V_itemRows (c : Dev nD) : (V m c main_v13 : S16384x64.Idx → EReal) = itemRows m c := by
  dsimp only [Gen.V, Gen.hostOps0]
  after_results_simp
  rfl

/-! ## The weight pieces -/

set_option maxHeartbeats 1000000 in
/-- The user block's weights against the embedding: the first 64 columns. -/
theorem userW_emb (c : Dev nD) (j l : Fin 64) :
    (V m c main_v20 : S64x64.Idx → EReal) (ix2 j l)
      = ((m (c, Proc.tc.devRef main_arg6)) : S64x85.Idx → EReal) (ix2 j ⟨l.val, by have := l.isLt; omega⟩) := by
  have e : (V m c main_v20 : S64x64.Idx → EReal)
      = truncf (F := Ideal) .bf16 (extractStridedSlice S64x64 ![0, 0] (m (c, Proc.tc.devRef main_arg6)) slices_S64x85_S64x64_0_0) bitsLt_bf16_f32 := by
    dsimp only [Gen.V, Gen.hostOps0]
    after_results_simp
  rw [e]
  show extractStridedSlice S64x64 ![0, 0] (m (c, Proc.tc.devRef main_arg6)) slices_S64x85_S64x64_0_0 (ix2 j l) = _
  exact (slice_cols_apply 0 (m (c, Proc.tc.devRef main_arg6)) slices_S64x85_S64x64_0_0 j l (by have := l.isLt; omega)).trans
    (congrArg (m (c, Proc.tc.devRef main_arg6)) (congrArg (ix2 j) (Fin.ext (Nat.zero_add _))))

set_option maxHeartbeats 1000000 in
/-- The user block's weights against the features: the last 21 columns. -/
theorem userW_feat (c : Dev nD) (j : Fin 64) (l : Fin 21) :
    (V m c main_v21 : S64x21.Idx → EReal) (ix2 j l)
      = ((m (c, Proc.tc.devRef main_arg6)) : S64x85.Idx → EReal) (ix2 j ⟨64 + l.val, by have := l.isLt; omega⟩) := by
  have e : (V m c main_v21 : S64x21.Idx → EReal)
      = truncf (F := Ideal) .bf16 (extractStridedSlice S64x21 ![0, 64] (m (c, Proc.tc.devRef main_arg6)) slices_S64x85_S64x21_0_64) bitsLt_bf16_f32 := by
    dsimp only [Gen.V, Gen.hostOps0]
    after_results_simp
  rw [e]
  show extractStridedSlice S64x21 ![0, 64] (m (c, Proc.tc.devRef main_arg6)) slices_S64x85_S64x21_0_64 (ix2 j l) = _
  exact slice_cols_apply 64 (m (c, Proc.tc.devRef main_arg6)) slices_S64x85_S64x21_0_64 j l (by have := l.isLt; omega)

set_option maxHeartbeats 1000000 in
theorem itemW_emb (c : Dev nD) (j l : Fin 64) :
    (V m c main_v22 : S64x64.Idx → EReal) (ix2 j l)
      = ((m (c, Proc.tc.devRef main_arg8)) : S64x103.Idx → EReal) (ix2 j ⟨l.val, by have := l.isLt; omega⟩) := by
  have e : (V m c main_v22 : S64x64.Idx → EReal)
      = truncf (F := Ideal) .bf16 (extractStridedSlice S64x64 ![0, 0] (m (c, Proc.tc.devRef main_arg8)) slices_S64x103_S64x64_0_0) bitsLt_bf16_f32 := by
    dsimp only [Gen.V, Gen.hostOps0]
    after_results_simp
  rw [e]
  show extractStridedSlice S64x64 ![0, 0] (m (c, Proc.tc.devRef main_arg8)) slices_S64x103_S64x64_0_0 (ix2 j l) = _
  exact (slice_cols_apply 0 (m (c, Proc.tc.devRef main_arg8)) slices_S64x103_S64x64_0_0 j l (by have := l.isLt; omega)).trans
    (congrArg (m (c, Proc.tc.devRef main_arg8)) (congrArg (ix2 j) (Fin.ext (Nat.zero_add _))))

set_option maxHeartbeats 1000000 in
theorem itemW_feat (c : Dev nD) (j : Fin 64) (l : Fin 39) :
    (V m c main_v23 : S64x39.Idx → EReal) (ix2 j l)
      = ((m (c, Proc.tc.devRef main_arg8)) : S64x103.Idx → EReal) (ix2 j ⟨64 + l.val, by have := l.isLt; omega⟩) := by
  have e : (V m c main_v23 : S64x39.Idx → EReal)
      = truncf (F := Ideal) .bf16 (extractStridedSlice S64x39 ![0, 64] (m (c, Proc.tc.devRef main_arg8)) slices_S64x103_S64x39_0_64) bitsLt_bf16_f32 := by
    dsimp only [Gen.V, Gen.hostOps0]
    after_results_simp
  rw [e]
  show extractStridedSlice S64x39 ![0, 64] (m (c, Proc.tc.devRef main_arg8)) slices_S64x103_S64x39_0_64 (ix2 j l) = _
  exact slice_cols_apply 64 (m (c, Proc.tc.devRef main_arg8)) slices_S64x103_S64x39_0_64 j l (by have := l.isLt; omega)

set_option maxHeartbeats 1000000 in
/-- The hidden layer's weights against the user's tower: the first 64 columns. -/
theorem hiddenW_user (c : Dev nD) (k : Fin 256) (l : Fin 64) :
    (V m c main_v24 : S256x64.Idx → EReal) (ix2 k l)
      = ((m (c, Proc.tc.devRef main_arg10)) : S256x128.Idx → EReal) (ix2 k ⟨l.val, by have := l.isLt; omega⟩) := by
  have e : (V m c main_v24 : S256x64.Idx → EReal)
      = truncf (F := Ideal) .bf16 (extractStridedSlice S256x64 ![0, 0] (m (c, Proc.tc.devRef main_arg10)) slices_S256x128_S256x64_0_0) bitsLt_bf16_f32 := by
    dsimp only [Gen.V, Gen.hostOps0]
    after_results_simp
  rw [e]
  show extractStridedSlice S256x64 ![0, 0] (m (c, Proc.tc.devRef main_arg10)) slices_S256x128_S256x64_0_0 (ix2 k l) = _
  exact (slice_cols_apply 0 (m (c, Proc.tc.devRef main_arg10)) slices_S256x128_S256x64_0_0 k l (by have := l.isLt; omega)).trans
    (congrArg (m (c, Proc.tc.devRef main_arg10)) (congrArg (ix2 k) (Fin.ext (Nat.zero_add _))))

set_option maxHeartbeats 1000000 in
/-- The hidden layer's weights against the item's tower: the last 64 columns. -/
theorem hiddenW_item (c : Dev nD) (k : Fin 256) (l : Fin 64) :
    (V m c main_v25 : S256x64.Idx → EReal) (ix2 k l)
      = ((m (c, Proc.tc.devRef main_arg10)) : S256x128.Idx → EReal) (ix2 k ⟨64 + l.val, by have := l.isLt; omega⟩) := by
  have e : (V m c main_v25 : S256x64.Idx → EReal)
      = truncf (F := Ideal) .bf16 (extractStridedSlice S256x64 ![0, 64] (m (c, Proc.tc.devRef main_arg10)) slices_S256x128_S256x64_0_64) bitsLt_bf16_f32 := by
    dsimp only [Gen.V, Gen.hostOps0]
    after_results_simp
  rw [e]
  show extractStridedSlice S256x64 ![0, 64] (m (c, Proc.tc.devRef main_arg10)) slices_S256x128_S256x64_0_64 (ix2 k l) = _
  exact slice_cols_apply 64 (m (c, Proc.tc.devRef main_arg10)) slices_S256x128_S256x64_0_64 k l (by have := l.isLt; omega)

set_option maxHeartbeats 1000000 in
/-- The last layer's weight row, narrowed to half width. -/
theorem lastW (c : Dev nD) (q : Fin 1) (k : Fin 256) :
    (V m c main_v26 : S1x256.Idx → EReal) (ix2 q k) = ((m (c, Proc.tc.devRef main_arg12)) : S1x256.Idx → EReal) (ix2 q k) := by
  have e : (V m c main_v26 : S1x256.Idx → EReal) = truncf (F := Ideal) .bf16 (m (c, Proc.tc.devRef main_arg12)) bitsLt_bf16_f32 := by
    dsimp only [Gen.V, Gen.hostOps0]
    after_results_simp
  rw [e]
  rfl

/-! ## The bias rows -/

set_option maxHeartbeats 1000000 in
theorem userBias (c : Dev nD) (j : Fin 64) :
    (V m c main_v27 : S1x64.Idx → EReal) (ix2 (0 : Fin 1) j) = ((m (c, Proc.tc.devRef main_arg7)) : S64.Idx → EReal) (ix1 j) := by
  have e : (V m c main_v27 : S1x64.Idx → EReal) = shapeCast S1x64 (m (c, Proc.tc.devRef main_arg7)) shapeCasts_S64_S1x64 := by
    dsimp only [Gen.V, Gen.hostOps0]
    after_results_simp
    rfl
  rw [e]
  exact shapeCast_c_1c_apply _ _ 0 j

set_option maxHeartbeats 1000000 in
theorem itemBias (c : Dev nD) (j : Fin 64) :
    (V m c main_v28 : S1x64.Idx → EReal) (ix2 (0 : Fin 1) j) = ((m (c, Proc.tc.devRef main_arg9)) : S64.Idx → EReal) (ix1 j) := by
  have e : (V m c main_v28 : S1x64.Idx → EReal) = shapeCast S1x64 (m (c, Proc.tc.devRef main_arg9)) shapeCasts_S64_S1x64 := by
    dsimp only [Gen.V, Gen.hostOps0]
    after_results_simp
    rfl
  rw [e]
  exact shapeCast_c_1c_apply _ _ 0 j

set_option maxHeartbeats 1000000 in
theorem hiddenBias (c : Dev nD) (k : Fin 256) :
    (V m c main_v29 : S1x256.Idx → EReal) (ix2 (0 : Fin 1) k) = ((m (c, Proc.tc.devRef main_arg11)) : S256.Idx → EReal) (ix1 k) := by
  have e : (V m c main_v29 : S1x256.Idx → EReal) = shapeCast S1x256 (m (c, Proc.tc.devRef main_arg11)) shapeCasts_S256_S1x256 := by
    dsimp only [Gen.V, Gen.hostOps0]
    after_results_simp
    rfl
  rw [e]
  exact shapeCast_c_1c_apply _ _ 0 k

set_option maxHeartbeats 1000000 in
theorem lastBias (c : Dev nD) (q : Fin 1) :
    (V m c main_v30 : S1x1.Idx → EReal) (ix2 (0 : Fin 1) q) = ((m (c, Proc.tc.devRef main_arg13)) : S1.Idx → EReal) (ix1 q) := by
  have e : (V m c main_v30 : S1x1.Idx → EReal) = shapeCast S1x1 (m (c, Proc.tc.devRef main_arg13)) shapeCasts_S1_S1x1 := by
    dsimp only [Gen.V, Gen.hostOps0]
    after_results_simp
    rfl
  rw [e]
  exact shapeCast_c_1c_apply _ _ 0 q

end Cert.Recommender.Operands

end
-- ==== Proof.Blocks.lean ====
/-
  From the blocks to the whole array. The grid has eight points; point t holds rows 2048 t … 2048 t + 2047 of the four
  activation arrays and the whole of every parameter array, and writes rows 2048 t … 2048 t + 2047 of the result. So
  what point t writes back is block t of ONE array, `result`: the score of every row under the launch memory's
  parameters (`flushed_eq`: the body's row-by-row description, each block entry read where it sits in its array, each
  parameter entry read back to the launch memory). The eight blocks cover the result (`cover`), so after the run the
  output array IS `result` (`final`, `run`).
-/
import proofs.«181629_j33629593927760_1_alg».proof.Proof.KernelValueP
import proofs.«181629_j33629593927760_1_alg».proof.Proof.KernelRows
import proofs.«181629_j33629593927760_1_alg».proof.Proof.Operands

noncomputable section

namespace Cert.Recommender.Blocks

open Cert.KernelIdeal Cert.KernelIdeal.Gen
open Idealize.ShloMosaic Idealize.ShloMosaic.TcCoe Idealize.SL.Sem
open Idealize.ShloMosaic.Pipeline (Dat)
open Idealize.ShloMosaic.ValueIdx Idealize.ShloMosaic.RowWise
open Cert.Recommender.Operands

variable (m : (ℓ : Loc nD τ sig) → Buf (Elt Ideal) ℓ) (ρ : Dev nD → PrngReg)

theorem hz : (![0, 0] : Fin 2 → Nat) = fun _ => 0 := funext fun a => by fin_cases a <;> rfl

/-- The batch's result from the launch memory: the score of every row of the gathered embeddings and the features. -/
def result (c : Dev nD) : S16384x1.Idx → EReal :=
  G (userRows m c) (itemRows m c) (m (c, Proc.tc.devRef main_arg2)) (m (c, Proc.tc.devRef main_arg3)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13))

/-! ## The blocks the body reads, each at its literal type -/

abbrev ueBlk (c : Dev nD) (t : Fin cfg0.N) : Vec Ideal S2048x64 .f32 := iblk m c 0 t
abbrev ieBlk (c : Dev nD) (t : Fin cfg0.N) : Vec Ideal S2048x64 .f32 := iblk m c 1 t
abbrev ufBlk (c : Dev nD) (t : Fin cfg0.N) : Vec Ideal S2048x21 .f32 := iblk m c 2 t
abbrev ifBlk (c : Dev nD) (t : Fin cfg0.N) : Vec Ideal S2048x39 .f32 := iblk m c 3 t
abbrev wueBlk (c : Dev nD) (t : Fin cfg0.N) : Vec Ideal S64x64 .bf16 := iblk m c 4 t
abbrev wufBlk (c : Dev nD) (t : Fin cfg0.N) : Vec Ideal S64x21 .bf16 := iblk m c 5 t
abbrev buBlk (c : Dev nD) (t : Fin cfg0.N) : Vec Ideal S1x64 .f32 := iblk m c 6 t
abbrev wieBlk (c : Dev nD) (t : Fin cfg0.N) : Vec Ideal S64x64 .bf16 := iblk m c 7 t
abbrev wifBlk (c : Dev nD) (t : Fin cfg0.N) : Vec Ideal S64x39 .bf16 := iblk m c 8 t
abbrev biBlk (c : Dev nD) (t : Fin cfg0.N) : Vec Ideal S1x64 .f32 := iblk m c 9 t
abbrev w1uBlk (c : Dev nD) (t : Fin cfg0.N) : Vec Ideal S256x64 .bf16 := iblk m c 10 t
abbrev w1iBlk (c : Dev nD) (t : Fin cfg0.N) : Vec Ideal S256x64 .bf16 := iblk m c 11 t
abbrev b1Blk (c : Dev nD) (t : Fin cfg0.N) : Vec Ideal S1x256 .f32 := iblk m c 12 t
abbrev w2Blk (c : Dev nD) (t : Fin cfg0.N) : Vec Ideal S1x256 .bf16 := iblk m c 13 t
abbrev b2Blk (c : Dev nD) (t : Fin cfg0.N) : Vec Ideal S1x1 .f32 := iblk m c 14 t

/-- The printed index maps over the eight grid points: the four activation windows and the output window move one
    block of rows per point; every parameter window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_15.index t (0 : Fin 2) = t.val ∧ win0_15.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- Row p of window 0's block at point t is row 2048 t + p of its array. -/
theorem read0 (c : Dev nD) (t : Fin cfg0.N) (ht : t.val < 8) (p : Fin 2048) (l : Fin 64) :
    ueBlk m c t (ix2 p l) = (V m c main_v6 : S16384x64.Idx → EReal) (ix2 ⟨t.val * 2048 + p.val, by have := p.isLt; omega⟩ l) := by
  have e := idx_facts t
  have h : ((cfg0.win 0).blk t).view.emb (ix2 p l) = ix2 ⟨t.val * 2048 + p.val, by have := p.isLt; omega⟩ l := by
    funext a; apply Fin.ext
    match a with
    | ⟨0, _⟩ => show win0_0.index t (0 : Fin 2) * 2048 + 1 * p.val = t.val * 2048 + p.val; omega
    | ⟨1, _⟩ => show win0_0.index t (1 : Fin 2) * 64 + 1 * l.val = l.val; omega
  show V m c main_v6 (((cfg0.win 0).blk t).view.emb (ix2 p l)) = _
  rw [h]

/-- Row p of window 1's block at point t is row 2048 t + p of its array. -/
theorem read1 (c : Dev nD) (t : Fin cfg0.N) (ht : t.val < 8) (p : Fin 2048) (l : Fin 64) :
    ieBlk m c t (ix2 p l) = (V m c main_v13 : S16384x64.Idx → EReal) (ix2 ⟨t.val * 2048 + p.val, by have := p.isLt; omega⟩ l) := by
  have e := idx_facts t
  have h : ((cfg0.win 1).blk t).view.emb (ix2 p l) = ix2 ⟨t.val * 2048 + p.val, by have := p.isLt; omega⟩ l := by
    funext a; apply Fin.ext
    match a with
    | ⟨0, _⟩ => show win0_1.index t (0 : Fin 2) * 2048 + 1 * p.val = t.val * 2048 + p.val; omega
    | ⟨1, _⟩ => show win0_1.index t (1 : Fin 2) * 64 + 1 * l.val = l.val; omega
  show V m c main_v13 (((cfg0.win 1).blk t).view.emb (ix2 p l)) = _
  rw [h]

/-- Row p of window 2's block at point t is row 2048 t + p of its array. -/
theorem read2 (c : Dev nD) (t : Fin cfg0.N) (ht : t.val < 8) (p : Fin 2048) (l : Fin 21) :
    ufBlk m c t (ix2 p l) = (V m c main_arg2 : S16384x21.Idx → EReal) (ix2 ⟨t.val * 2048 + p.val, by have := p.isLt; omega⟩ l) := by
  have e := idx_facts t
  have h : ((cfg0.win 2).blk t).view.emb (ix2 p l) = ix2 ⟨t.val * 2048 + p.val, by have := p.isLt; omega⟩ l := by
    funext a; apply Fin.ext
    match a with
    | ⟨0, _⟩ => show win0_2.index t (0 : Fin 2) * 2048 + 1 * p.val = t.val * 2048 + p.val; omega
    | ⟨1, _⟩ => show win0_2.index t (1 : Fin 2) * 21 + 1 * l.val = l.val; omega
  show V m c main_arg2 (((cfg0.win 2).blk t).view.emb (ix2 p l)) = _
  rw [h]

/-- Row p of window 3's block at point t is row 2048 t + p of its array. -/
theorem read3 (c : Dev nD) (t : Fin cfg0.N) (ht : t.val < 8) (p : Fin 2048) (l : Fin 39) :
    ifBlk m c t (ix2 p l) = (V m c main_arg3 : S16384x39.Idx → EReal) (ix2 ⟨t.val * 2048 + p.val, by have := p.isLt; omega⟩ l) := by
  have e := idx_facts t
  have h : ((cfg0.win 3).blk t).view.emb (ix2 p l) = ix2 ⟨t.val * 2048 + p.val, by have := p.isLt; omega⟩ l := by
    funext a; apply Fin.ext
    match a with
    | ⟨0, _⟩ => show win0_3.index t (0 : Fin 2) * 2048 + 1 * p.val = t.val * 2048 + p.val; omega
    | ⟨1, _⟩ => show win0_3.index t (1 : Fin 2) * 39 + 1 * l.val = l.val; omega
  show V m c main_arg3 (((cfg0.win 3).blk t).view.emb (ix2 p l)) = _
  rw [h]

/-- Window 4 holds its whole array at every point. -/
theorem read4 (c : Dev nD) (t : Fin cfg0.N) (j : Fin 64) (l : Fin 64) :
    wueBlk m c t (ix2 j l) = (V m c main_v20 : S64x64.Idx → EReal) (ix2 j l) := by
  have e := idx_facts t
  have h : ((cfg0.win 4).blk t).view.emb (ix2 j l) = ix2 j l := by
    funext a; apply Fin.ext
    match a with
    | ⟨0, _⟩ => show win0_4.index t (0 : Fin 2) * 64 + 1 * j.val = j.val; omega
    | ⟨1, _⟩ => show win0_4.index t (1 : Fin 2) * 64 + 1 * l.val = l.val; omega
  show V m c main_v20 (((cfg0.win 4).blk t).view.emb (ix2 j l)) = _
  rw [h]

/-- Window 5 holds its whole array at every point. -/
theorem read5 (c : Dev nD) (t : Fin cfg0.N) (j : Fin 64) (l : Fin 21) :
    wufBlk m c t (ix2 j l) = (V m c main_v21 : S64x21.Idx → EReal) (ix2 j l) := by
  have e := idx_facts t
  have h : ((cfg0.win 5).blk t).view.emb (ix2 j l) = ix2 j l := by
    funext a; apply Fin.ext
    match a with
    | ⟨0, _⟩ => show win0_5.index t (0 : Fin 2) * 64 + 1 * j.val = j.val; omega
    | ⟨1, _⟩ => show win0_5.index t (1 : Fin 2) * 21 + 1 * l.val = l.val; omega
  show V m c main_v21 (((cfg0.win 5).blk t).view.emb (ix2 j l)) = _
  rw [h]

/-- Window 6 holds its whole array at every point. -/
theorem read6 (c : Dev nD) (t : Fin cfg0.N) (j : Fin 1) (l : Fin 64) :
    buBlk m c t (ix2 j l) = (V m c main_v27 : S1x64.Idx → EReal) (ix2 j l) := by
  have e := idx_facts t
  have h : ((cfg0.win 6).blk t).view.emb (ix2 j l) = ix2 j l := by
    funext a; apply Fin.ext
    match a with
    | ⟨0, _⟩ => show win0_6.index t (0 : Fin 2) * 1 + 1 * j.val = j.val; omega
    | ⟨1, _⟩ => show win0_6.index t (1 : Fin 2) * 64 + 1 * l.val = l.val; omega
  show V m c main_v27 (((cfg0.win 6).blk t).view.emb (ix2 j l)) = _
  rw [h]

/-- Window 7 holds its whole array at every point. -/
theorem read7 (c : Dev nD) (t : Fin cfg0.N) (j : Fin 64) (l : Fin 64) :
    wieBlk m c t (ix2 j l) = (V m c main_v22 : S64x64.Idx → EReal) (ix2 j l) := by
  have e := idx_facts t
  have h : ((cfg0.win 7).blk t).view.emb (ix2 j l) = ix2 j l := by
    funext a; apply Fin.ext
    match a with
    | ⟨0, _⟩ => show win0_7.index t (0 : Fin 2) * 64 + 1 * j.val = j.val; omega
    | ⟨1, _⟩ => show win0_7.index t (1 : Fin 2) * 64 + 1 * l.val = l.val; omega
  show V m c main_v22 (((cfg0.win 7).blk t).view.emb (ix2 j l)) = _
  rw [h]

/-- Window 8 holds its whole array at every point. -/
theorem read8 (c : Dev nD) (t : Fin cfg0.N) (j : Fin 64) (l : Fin 39) :
    wifBlk m c t (ix2 j l) = (V m c main_v23 : S64x39.Idx → EReal) (ix2 j l) := by
  have e := idx_facts t
  have h : ((cfg0.win 8).blk t).view.emb (ix2 j l) = ix2 j l := by
    funext a; apply Fin.ext
    match a with
    | ⟨0, _⟩ => show win0_8.index t (0 : Fin 2) * 64 + 1 * j.val = j.val; omega
    | ⟨1, _⟩ => show win0_8.index t (1 : Fin 2) * 39 + 1 * l.val = l.val; omega
  show V m c main_v23 (((cfg0.win 8).blk t).view.emb (ix2 j l)) = _
  rw [h]

/-- Window 9 holds its whole array at every point. -/
theorem read9 (c : Dev nD) (t : Fin cfg0.N) (j : Fin 1) (l : Fin 64) :
    biBlk m c t (ix2 j l) = (V m c main_v28 : S1x64.Idx → EReal) (ix2 j l) := by
  have e := idx_facts t
  have h : ((cfg0.win 9).blk t).view.emb (ix2 j l) = ix2 j l := by
    funext a; apply Fin.ext
    match a with
    | ⟨0, _⟩ => show win0_9.index t (0 : Fin 2) * 1 + 1 * j.val = j.val; omega
    | ⟨1, _⟩ => show win0_9.index t (1 : Fin 2) * 64 + 1 * l.val = l.val; omega
  show V m c main_v28 (((cfg0.win 9).blk t).view.emb (ix2 j l)) = _
  rw [h]

/-- Window 10 holds its whole array at every point. -/
theorem read10 (c : Dev nD) (t : Fin cfg0.N) (j : Fin 256) (l : Fin 64) :
    w1uBlk m c t (ix2 j l) = (V m c main_v24 : S256x64.Idx → EReal) (ix2 j l) := by
  have e := idx_facts t
  have h : ((cfg0.win 10).blk t).view.emb (ix2 j l) = ix2 j l := by
    funext a; apply Fin.ext
    match a with
    | ⟨0, _⟩ => show win0_10.index t (0 : Fin 2) * 256 + 1 * j.val = j.val; omega
    | ⟨1, _⟩ => show win0_10.index t (1 : Fin 2) * 64 + 1 * l.val = l.val; omega
  show V m c main_v24 (((cfg0.win 10).blk t).view.emb (ix2 j l)) = _
  rw [h]

/-- Window 11 holds its whole array at every point. -/
theorem read11 (c : Dev nD) (t : Fin cfg0.N) (j : Fin 256) (l : Fin 64) :
    w1iBlk m c t (ix2 j l) = (V m c main_v25 : S256x64.Idx → EReal) (ix2 j l) := by
  have e := idx_facts t
  have h : ((cfg0.win 11).blk t).view.emb (ix2 j l) = ix2 j l := by
    funext a; apply Fin.ext
    match a with
    | ⟨0, _⟩ => show win0_11.index t (0 : Fin 2) * 256 + 1 * j.val = j.val; omega
    | ⟨1, _⟩ => show win0_11.index t (1 : Fin 2) * 64 + 1 * l.val = l.val; omega
  show V m c main_v25 (((cfg0.win 11).blk t).view.emb (ix2 j l)) = _
  rw [h]

/-- Window 12 holds its whole array at every point. -/
theorem read12 (c : Dev nD) (t : Fin cfg0.N) (j : Fin 1) (l : Fin 256) :
    b1Blk m c t (ix2 j l) = (V m c main_v29 : S1x256.Idx → EReal) (ix2 j l) := by
  have e := idx_facts t
  have h : ((cfg0.win 12).blk t).view.emb (ix2 j l) = ix2 j l := by
    funext a; apply Fin.ext
    match a with
    | ⟨0, _⟩ => show win0_12.index t (0 : Fin 2) * 1 + 1 * j.val = j.val; omega
    | ⟨1, _⟩ => show win0_12.index t (1 : Fin 2) * 256 + 1 * l.val = l.val; omega
  show V m c main_v29 (((cfg0.win 12).blk t).view.emb (ix2 j l)) = _
  rw [h]

/-- Window 13 holds its whole array at every point. -/
theorem read13 (c : Dev nD) (t : Fin cfg0.N) (j : Fin 1) (l : Fin 256) :
    w2Blk m c t (ix2 j l) = (V m c main_v26 : S1x256.Idx → EReal) (ix2 j l) := by
  have e := idx_facts t
  have h : ((cfg0.win 13).blk t).view.emb (ix2 j l) = ix2 j l := by
    funext a; apply Fin.ext
    match a with
    | ⟨0, _⟩ => show win0_13.index t (0 : Fin 2) * 1 + 1 * j.val = j.val; omega
    | ⟨1, _⟩ => show win0_13.index t (1 : Fin 2) * 256 + 1 * l.val = l.val; omega
  show V m c main_v26 (((cfg0.win 13).blk t).view.emb (ix2 j l)) = _
  rw [h]

/-- Window 14 holds its whole array at every point. -/
theorem read14 (c : Dev nD) (t : Fin cfg0.N) (j : Fin 1) (l : Fin 1) :
    b2Blk m c t (ix2 j l) = (V m c main_v30 : S1x1.Idx → EReal) (ix2 j l) := by
  have e := idx_facts t
  have h : ((cfg0.win 14).blk t).view.emb (ix2 j l) = ix2 j l := by
    funext a; apply Fin.ext
    match a with
    | ⟨0, _⟩ => show win0_14.index t (0 : Fin 2) * 1 + 1 * j.val = j.val; omega
    | ⟨1, _⟩ => show win0_14.index t (1 : Fin 2) * 1 + 1 * l.val = l.val; omega
  show V m c main_v30 (((cfg0.win 14).blk t).view.emb (ix2 j l)) = _
  rw [h]

/-- Where entry (p, q) of the output block at point t sits in the output array. -/
theorem emb_out (t : Fin cfg0.N) (ht : t.val < 8) (p : Fin 2048) (q : Fin 1) :
    ((cfg0.win 15).blk t).view.emb (ix2 p q) = ix2 ⟨t.val * 2048 + p.val, by have := p.isLt; omega⟩ q := by
  have e := idx_facts t
  funext a; apply Fin.ext
  match a with
  | ⟨0, _⟩ => show win0_15.index t (0 : Fin 2) * 2048 + 1 * p.val = t.val * 2048 + p.val; omega
  | ⟨1, _⟩ => show win0_15.index t (1 : Fin 2) * 1 + 1 * q.val = q.val; omega

/-- WHAT POINT t WRITES BACK is block t of `result`. -/
theorem flushed_eq (c : Dev nD) (t : Fin cfg0.N) :
    (dats m 0 c).flushed 15 t = ((cfg0.win 15).blk t).view.read (Elt Ideal) (result m c) := by
  have ht : t.val < 8 := t.isLt
  rw [Cert.KernelIdeal.ValueP.flushed15]
  unfold out0_15
  rw [View.canon_unit_zero hz]
  simp only [View.ld_unit_zero (S := S2048x64) hz, View.ld_unit_zero (S := S2048x21) hz, View.ld_unit_zero (S := S2048x39) hz,
    View.ld_unit_zero (S := S64x64) hz, View.ld_unit_zero (S := S64x21) hz, View.ld_unit_zero (S := S1x64) hz,
    View.ld_unit_zero (S := S64x39) hz, View.ld_unit_zero (S := S256x64) hz, View.ld_unit_zero (S := S1x256) hz,
    View.ld_unit_zero (S := S1x1) hz]
  funext j
  obtain ⟨p, q, rfl⟩ : ∃ (p : Fin 2048) (q : Fin 1), j = ix2 p q := ⟨j 0, j 1, eq_ix2 j⟩
  show k0_pay1 (F := Ideal) (k0_pay6 (k0_pay2 (ieBlk m c t)) (k0_pay3 (ueBlk m c t) (ufBlk m c t) (wueBlk m c t) (wufBlk m c t) (buBlk m c t))
      (k0_pay4 (ifBlk m c t)) (k0_pay5 (ieBlk m c t) (wieBlk m c t)) (wifBlk m c t) (biBlk m c t) (w1uBlk m c t) (w1iBlk m c t)
      (b1Blk m c t) (w2Blk m c t)) (k0_pay7 (b2Blk m c t)) (ix2 p q)
    = result m c (((cfg0.win 15).blk t).view.emb (ix2 p q))
  refine (KernelBody.rows_body (ueBlk m c t) (ieBlk m c t) (ufBlk m c t) (ifBlk m c t) (wueBlk m c t) (wufBlk m c t) (buBlk m c t)
    (wieBlk m c t) (wifBlk m c t) (biBlk m c t) (w1uBlk m c t) (w1iBlk m c t) (b1Blk m c t) (w2Blk m c t) (b2Blk m c t) p q).trans ?_
  rw [emb_out t ht p q]
  show _ = rowScore (userRows m c) (itemRows m c) (m (c, Proc.tc.devRef main_arg2)) (m (c, Proc.tc.devRef main_arg3)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13))
    ⟨t.val * 2048 + p.val, by have := p.isLt; omega⟩ q
  unfold rowScore
  have h0 : (fun l => ueBlk m c t (ix2 p l)) = fun l => userRows m c (ix2 ⟨t.val * 2048 + p.val, by have := p.isLt; omega⟩ l) :=
    funext fun l => (read0 m c t ht p l).trans (congrFun (V_userRows m c) _)
  have h1 : (fun l => ieBlk m c t (ix2 p l)) = fun l => itemRows m c (ix2 ⟨t.val * 2048 + p.val, by have := p.isLt; omega⟩ l) :=
    funext fun l => (read1 m c t ht p l).trans (congrFun (V_itemRows m c) _)
  have h2 : (fun l => ufBlk m c t (ix2 p l))
      = fun l => ((m (c, Proc.tc.devRef main_arg2)) : S16384x21.Idx → EReal) (ix2 ⟨t.val * 2048 + p.val, by have := p.isLt; omega⟩ l) :=
    funext fun l => (read2 m c t ht p l).trans (congrFun (V_main_arg2 m c) _)
  have h3 : (fun l => ifBlk m c t (ix2 p l))
      = fun l => ((m (c, Proc.tc.devRef main_arg3)) : S16384x39.Idx → EReal) (ix2 ⟨t.val * 2048 + p.val, by have := p.isLt; omega⟩ l) :=
    funext fun l => (read3 m c t ht p l).trans (congrFun (V_main_arg3 m c) _)
  have h4 : (fun (l : Fin 64) (j : Fin 64) => wueBlk m c t (ix2 j l))
      = fun l j => ((m (c, Proc.tc.devRef main_arg6)) : S64x85.Idx → EReal) (ix2 j ⟨l.val, by have := l.isLt; omega⟩) :=
    funext fun l => funext fun j => (read4 m c t j l).trans (userW_emb m c j l)
  have h5 : (fun (l : Fin 21) (j : Fin 64) => wufBlk m c t (ix2 j l))
      = fun l j => ((m (c, Proc.tc.devRef main_arg6)) : S64x85.Idx → EReal) (ix2 j ⟨64 + l.val, by have := l.isLt; omega⟩) :=
    funext fun l => funext fun j => (read5 m c t j l).trans (userW_feat m c j l)
  have h6 : (fun (j : Fin 64) => buBlk m c t (ix2 (0 : Fin 1) j)) = fun j => ((m (c, Proc.tc.devRef main_arg7)) : S64.Idx → EReal) (ix1 j) :=
    funext fun j => (read6 m c t 0 j).trans (userBias m c j)
  have h7 : (fun (l : Fin 64) (j : Fin 64) => wieBlk m c t (ix2 j l))
      = fun l j => ((m (c, Proc.tc.devRef main_arg8)) : S64x103.Idx → EReal) (ix2 j ⟨l.val, by have := l.isLt; omega⟩) :=
    funext fun l => funext fun j => (read7 m c t j l).trans (itemW_emb m c j l)
  have h8 : (fun (l : Fin 39) (j : Fin 64) => wifBlk m c t (ix2 j l))
      = fun l j => ((m (c, Proc.tc.devRef main_arg8)) : S64x103.Idx → EReal) (ix2 j ⟨64 + l.val, by have := l.isLt; omega⟩) :=
    funext fun l => funext fun j => (read8 m c t j l).trans (itemW_feat m c j l)
  have h9 : (fun (j : Fin 64) => biBlk m c t (ix2 (0 : Fin 1) j)) = fun j => ((m (c, Proc.tc.devRef main_arg9)) : S64.Idx → EReal) (ix1 j) :=
    funext fun j => (read9 m c t 0 j).trans (itemBias m c j)
  have h10 : (fun (l : Fin 64) (k : Fin 256) => w1uBlk m c t (ix2 k l))
      = fun l k => ((m (c, Proc.tc.devRef main_arg10)) : S256x128.Idx → EReal) (ix2 k ⟨l.val, by have := l.isLt; omega⟩) :=
    funext fun l => funext fun k => (read10 m c t k l).trans (hiddenW_user m c k l)
  have h11 : (fun (l : Fin 64) (k : Fin 256) => w1iBlk m c t (ix2 k l))
      = fun l k => ((m (c, Proc.tc.devRef main_arg10)) : S256x128.Idx → EReal) (ix2 k ⟨64 + l.val, by have := l.isLt; omega⟩) :=
    funext fun l => funext fun k => (read11 m c t k l).trans (hiddenW_item m c k l)
  have h12 : (fun (k : Fin 256) => b1Blk m c t (ix2 (0 : Fin 1) k)) = fun k => ((m (c, Proc.tc.devRef main_arg11)) : S256.Idx → EReal) (ix1 k) :=
    funext fun k => (read12 m c t 0 k).trans (hiddenBias m c k)
  have h13 : (fun (k : Fin 256) => w2Blk m c t (ix2 q k)) = fun k => ((m (c, Proc.tc.devRef main_arg12)) : S1x256.Idx → EReal) (ix2 q k) :=
    funext fun k => (read13 m c t q k).trans (lastW m c q k)
  have h14 : b2Blk m c t (ix2 (0 : Fin 1) q) = ((m (c, Proc.tc.devRef main_arg13)) : S1.Idx → EReal) (ix1 q) :=
    (read14 m c t 0 q).trans (lastBias m c q)
  beta_reduce
  rw [h0, h1, h2, h3, h4, h5, h6, h7, h8, h9, h10, h11, h12, h13, h14]

/-! ## The cover -/

/-- An index of the output array is in point t's block iff each coordinate is in the block's range on its axis. -/
theorem mem_blk (t : Fin cfg0.N) (i : S16384x1.Idx) :
    i ∈ ((cfg0.win 15).blk t).view.set ↔ ∀ a : Fin 2, win0_15.index t a * S2048x1.size a ≤ (i a).val
      ∧ (i a).val < win0_15.index t a * S2048x1.size a + S2048x1.size a := by
  show i ∈ ((View.whole main_v31).slice (win0_15.rect t)).set ↔ _
  rw [View.set_slice_whole, Rect.mem_set_unit]
  exact Iff.rfl

/-- Every row of the result is in the block of the point that holds it: row r in point r / 2048's. -/
theorem cover (i : S16384x1.Idx) :
    ∃ t : Fin cfg0.N, (cfg0.win 15).flush t = true ∧ i ∈ ((cfg0.win 15).blk t).view.set := by
  have hi0 : (i 0).val < 16384 := (i 0).isLt
  have hi1 : (i 1).val < 1 := (i 1).isLt
  have hlt : (i 0).val / 2048 < 8 := by omega
  let t : Fin cfg0.N := ⟨(i 0).val / 2048, hlt⟩
  have e := idx_facts t
  have htv : t.val = (i 0).val / 2048 := rfl
  refine ⟨t, flush0_15 t, ?_⟩
  rw [mem_blk]
  intro a
  match a with
  | ⟨0, _⟩ => show win0_15.index t (0 : Fin 2) * 2048 ≤ (i 0).val ∧ (i 0).val < win0_15.index t (0 : Fin 2) * 2048 + 2048; omega
  | ⟨1, _⟩ => show win0_15.index t (1 : Fin 2) * 1 ≤ (i 1).val ∧ (i 1).val < win0_15.index t (1 : Fin 2) * 1 + 1; omega

/-- THE OUTPUT ARRAY after the run is `result`. -/
theorem final (c : Dev nD) : (dats m 0 c).arrAt 15 cfg0.N = result m c :=
  (dats m 0 c).arrAt_eq_of_cover 15 (result m c) (fun t _ => flushed_eq m c t) cover

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.ValueP.run_blocks m ρ)

end Cert.Recommender.Blocks

end
-- ==== Proof.RefRows.lean ====
/-
  The reference, row by row. Its result's row p is the score (`Recommender.score`) of row p of the gathered embedding
  arrays and the feature arrays: each residual block lays the embedding row and the feature row side by side,
  rectifies, multiplies once by the transposed weight matrix and adds the bias and the embedding row; the head does the
  same with the two tower rows. One product with the whole matrix is the two products with its first 64 and its
  remaining columns (`denseCat_eq`), which is the form the score is written in.

  The two gathers are kept as they are: whatever rows they select, the kernel's program selects the same ones.
-/
import proofs.«181629_j33629593927760_1_alg».proof.Proof.RefReadP
import proofs.«181629_j33629593927760_1_alg».proof.Proof.Spec

noncomputable section

open scoped BigOperators

namespace Cert.Recommender.Reference

open Cert.ReferenceIdeal Cert.ReferenceIdeal.Gen Cert.ReferenceIdeal.ReadP Cert.ReferenceIdeal.Facts₀ Cert.ReferenceIdeal.Facts
open Idealize.ShloMosaic Idealize.ShloMosaic.ValueIdx Idealize.ShloMosaic.RowWise

theorem plain_85_64 : PlainDot.IsPlain dot_S16384x85_S85x64_S16384x64_1_0_0_1_n_n := ⟨rfl, rfl, rfl, rfl, rfl, rfl⟩
theorem plain_103_64 : PlainDot.IsPlain dot_S16384x103_S103x64_S16384x64_1_0_0_1_n_n := ⟨rfl, rfl, rfl, rfl, rfl, rfl⟩
theorem plain_128_256 : PlainDot.IsPlain dot_S16384x128_S128x256_S16384x256_1_0_0_1_n_n := ⟨rfl, rfl, rfl, rfl, rfl, rfl⟩
theorem plain_256_1 : PlainDot.IsPlain dot_S16384x256_S256x1_S16384x1_1_0_0_1_n_n := ⟨rfl, rfl, rfl, rfl, rfl, rfl⟩

variable (x0 x1 : (⟨S16384, .i32⟩ : BufTy).Contents (Elt Ideal)) (x2 : (⟨S16384x21, .f32⟩ : BufTy).Contents (Elt Ideal))
  (x3 : (⟨S16384x39, .f32⟩ : BufTy).Contents (Elt Ideal)) (x4 : (⟨S1000001x64, .f32⟩ : BufTy).Contents (Elt Ideal))
  (x5 : (⟨S500001x64, .f32⟩ : BufTy).Contents (Elt Ideal)) (x6 : (⟨S64x85, .f32⟩ : BufTy).Contents (Elt Ideal))
  (x7 : (⟨S64, .f32⟩ : BufTy).Contents (Elt Ideal)) (x8 : (⟨S64x103, .f32⟩ : BufTy).Contents (Elt Ideal))
  (x9 : (⟨S64, .f32⟩ : BufTy).Contents (Elt Ideal)) (x10 : (⟨S256x128, .f32⟩ : BufTy).Contents (Elt Ideal))
  (x11 : (⟨S256, .f32⟩ : BufTy).Contents (Elt Ideal)) (x12 : (⟨S1x256, .f32⟩ : BufTy).Contents (Elt Ideal))
  (x13 : (⟨S1, .f32⟩ : BufTy).Contents (Elt Ideal))

/-- The user's residual block: row p is the tower of row p of the gathered user embeddings and the user features. -/
theorem rows_userTower :
    Rows (val_main_v21 (F := Ideal) x0 x2 x4 x6 x7) fun p =>
      tower (fun l => val_main_v6 (F := Ideal) x0 x4 (ix2 p l)) (fun l => x2 (ix2 p l))
        (fun (l : Fin 64) j => x6 (ix2 j ⟨l.val, by have := l.isLt; omega⟩))
        (fun (l : Fin 21) j => x6 (ix2 j ⟨64 + l.val, by have := l.isLt; omega⟩)) (fun j => x7 (ix1 j)) := by
  have h14 : Rows (val_main_v14 (F := Ideal) x0 x2 x4) fun p =>
      sideBySide (rfl : (85 : ℕ) = 64 + 21) (fun l => val_main_v6 (F := Ideal) x0 x4 (ix2 p l)) (fun l => x2 (ix2 p l)) := by
    unfold val_main_v14
    exact rows_concat (rfl : (85 : ℕ) = 64 + 21) (rows_self (val_main_v6 (F := Ideal) x0 x4)) (rows_self x2) _
  have h15 := rows_maximumf (φ := .f32) h14 (rows_hostConstant (R := 16384) (C := 85) (φ := .f32) 0x00000000#32 Facts₀.bcast_S_S16384x85)
  have h17 := rows_dotGeneral (φ₁ := .f32) (φ₂ := .f32) plain_85_64 none h15 (rows_transpose x6 Facts₀.transposes_S64x85_S85x64_1_0)
  have h19 := rows_hostBias (R := 16384) x7 Facts₀.bcast_S64_S1x64_1 Facts₀.bcast_S1x64_S16384x64_0_1
  have h21 := rows_addf (φ := .f32) (rows_addf (φ := .f32) h17 h19) (rows_self (val_main_v6 (F := Ideal) x0 x4))
  unfold val_main_v21 val_main_v20 val_main_v19 val_main_v18 val_main_v17 val_main_v16 val_main_v15 val_main_call0_v0 val_main_call0_cst
  refine h21.congr fun p j => ?_
  unfold tower
  rw [← denseCat_eq (rfl : (85 : ℕ) = 64 + 21) _ _ (fun l j => x6 (ix2 j l))]
  rfl

/-- The item's residual block. -/
theorem rows_itemTower :
    Rows (val_main_v29 (F := Ideal) x1 x3 x5 x8 x9) fun p =>
      tower (fun l => val_main_v13 (F := Ideal) x1 x5 (ix2 p l)) (fun l => x3 (ix2 p l))
        (fun (l : Fin 64) j => x8 (ix2 j ⟨l.val, by have := l.isLt; omega⟩))
        (fun (l : Fin 39) j => x8 (ix2 j ⟨64 + l.val, by have := l.isLt; omega⟩)) (fun j => x9 (ix1 j)) := by
  have h22 : Rows (val_main_v22 (F := Ideal) x1 x3 x5) fun p =>
      sideBySide (rfl : (103 : ℕ) = 64 + 39) (fun l => val_main_v13 (F := Ideal) x1 x5 (ix2 p l)) (fun l => x3 (ix2 p l)) := by
    unfold val_main_v22
    exact rows_concat (rfl : (103 : ℕ) = 64 + 39) (rows_self (val_main_v13 (F := Ideal) x1 x5)) (rows_self x3) _
  have h23 := rows_maximumf (φ := .f32) h22 (rows_hostConstant (R := 16384) (C := 103) (φ := .f32) 0x00000000#32 Facts₀.bcast_S_S16384x103)
  have h25 := rows_dotGeneral (φ₁ := .f32) (φ₂ := .f32) plain_103_64 none h23 (rows_transpose x8 Facts₀.transposes_S64x103_S103x64_1_0)
  have h27 := rows_hostBias (R := 16384) x9 Facts₀.bcast_S64_S1x64_1 Facts₀.bcast_S1x64_S16384x64_0_1
  have h29 := rows_addf (φ := .f32) (rows_addf (φ := .f32) h25 h27) (rows_self (val_main_v13 (F := Ideal) x1 x5))
  unfold val_main_v29 val_main_v28 val_main_v27 val_main_v26 val_main_v25 val_main_v24 val_main_v23 val_main_call1_v0 val_main_call1_cst
  refine h29.congr fun p j => ?_
  unfold tower
  rw [← denseCat_eq (rfl : (103 : ℕ) = 64 + 39) _ _ (fun l j => x8 (ix2 j l))]
  rfl

/-- The reference's result, row by row, is the score. -/
theorem rows_reference :
    Rows (val_main_v42 (F := Ideal) x0 x1 x2 x3 x4 x5 x6 x7 x8 x9 x10 x11 x12 x13)
      (rowScore (val_main_v6 (F := Ideal) x0 x4) (val_main_v13 (F := Ideal) x1 x5) x2 x3 x6 x7 x8 x9 x10 x11 x12 x13) := by
  have h30 := rows_concat (rfl : (128 : ℕ) = 64 + 64) (rows_userTower x0 x2 x4 x6 x7) (rows_itemTower x1 x3 x5 x8 x9)
    Facts₀.concatenates_S16384x64_S16384x64_S16384x128_d1
  have h31 := rows_maximumf (φ := .f32) h30 (rows_hostConstant (R := 16384) (C := 128) (φ := .f32) 0x00000000#32 Facts₀.bcast_S_S16384x128)
  have h33 := rows_dotGeneral (φ₁ := .f32) (φ₂ := .f32) plain_128_256 none h31 (rows_transpose x10 Facts₀.transposes_S256x128_S128x256_1_0)
  have h35 := rows_hostBias (R := 16384) x11 Facts₀.bcast_S256_S1x256_1 Facts₀.bcast_S1x256_S16384x256_0_1
  have h36 := (rows_addf (φ := .f32) h33 h35).congr fun p k =>
    (denseCat_eq (rfl : (128 : ℕ) = 64 + 64) _ _ (fun l k => x10 (ix2 k l)) (fun k => x11 (ix1 k)) k)
  have h37 := rows_maximumf (φ := .f32) h36 (rows_hostConstant (R := 16384) (C := 256) (φ := .f32) 0x00000000#32 Facts₀.bcast_S_S16384x256)
  have h39 := rows_dotGeneral (φ₁ := .f32) (φ₂ := .f32) plain_256_1 none h37 (rows_transpose x12 Facts₀.transposes_S1x256_S256x1_1_0)
  have h41 := rows_hostBias (R := 16384) x13 Facts₀.bcast_S1_S1x1_1 Facts₀.bcast_S1x1_S16384x1_0_1
  have h42 := rows_addf (φ := .f32) h39 h41
  unfold val_main_v42 val_main_v41 val_main_v40 val_main_v39 val_main_v38 val_main_v37 val_main_call3_v0 val_main_call3_cst
    val_main_v36 val_main_v35 val_main_v34 val_main_v33 val_main_v32 val_main_v31 val_main_call2_v0 val_main_call2_cst val_main_v30
  exact h42.congr fun _ _ => rfl

end Cert.Recommender.Reference

end
-- ==== Proof.lean ====
/-
  A two-tower recommender's scoring pass, a fused kernel against its jnp reference, equal over the extended reals.

  For every row p of a batch of 16384 (user, item) pairs both programs gather the user's and the item's embedding
  rows (e_u, e_i : 64 entries each) by the same id columns, and compute, with r(x) = max (x, 0),

      u = r(e_u ++ f_u) W_u^T + b_u + e_u          (f_u : 21 user features, W_u : 64 by 85)
      v = r(e_i ++ f_i) W_i^T + b_i + e_i          (f_i : 39 item features, W_i : 64 by 103)
      h = r( r(u ++ v) W_1^T + b_1 )               (W_1 : 256 by 128)
      score = h W_2^T + b_2                        (W_2 : 1 by 256).

  The reference forms each concatenation and multiplies once. The kernel never concatenates: it multiplies e and f
  by the first 64 and the remaining columns of the weight matrix (cut and narrowed to half width before the call) and
  adds the two products; it does so on blocks of 2048 rows, eight grid points in all. On the extended reals a change
  of float format keeps every entry, the matrix unit into a zero accumulator and the host's dot product are the same
  sums, and a sum over a + b terms is the sum of its first a plus the sum of its last b terms whatever the terms are
  — so the two results agree entry by entry, and the precondition (finite inputs) is never opened. The gathers are
  never opened either: both programs apply the same gather to the same tables and ids.

  Modules: Spec (the score of one row; the sum-splitting law), KernelRows (the kernel body row by row), RefRows
  (the reference row by row), Operands (what the region's operand arrays hold), Blocks (from the eight blocks to the
  whole output array and the kernel's run), and here the five claims.
-/
import proofs.«181629_j33629593927760_1_alg».proof.Defs
import proofs.«181629_j33629593927760_1_alg».proof.Proof.Gen.Kernel
import proofs.«181629_j33629593927760_1_alg».proof.Proof.Gen.Kernel.Skeleton
import proofs.«181629_j33629593927760_1_alg».proof.Proof.Gen.Kernel.Launch
import proofs.«181629_j33629593927760_1_alg».proof.Proof.Gen.Kernel.Points
import proofs.«181629_j33629593927760_1_alg».proof.Proof.Gen.Kernel.Frame
import proofs.«181629_j33629593927760_1_alg».proof.Proof.Gen.KernelIdeal
import proofs.«181629_j33629593927760_1_alg».proof.Proof.Gen.KernelIdeal.Skeleton
import proofs.«181629_j33629593927760_1_alg».proof.Proof.Gen.KernelIdeal.Launch
import proofs.«181629_j33629593927760_1_alg».proof.Proof.Gen.KernelIdeal.Points
import proofs.«181629_j33629593927760_1_alg».proof.Proof.Gen.KernelIdeal.Frame
import proofs.«181629_j33629593927760_1_alg».proof.Proof.Gen.ReferenceIdeal
import proofs.«181629_j33629593927760_1_alg».proof.Proof.Gen.Pre_finite_inputs
import proofs.«181629_j33629593927760_1_alg».proof.Proof.Blocks
import proofs.«181629_j33629593927760_1_alg».proof.Proof.RefRows
import Idealize.ShloMosaic.Adequacy
import Idealize.ShloMosaic.Init

noncomputable section

namespace Cert.Proof

open Idealize.ShloMosaic Idealize.SL.Sem Idealize.ShloMosaic.RowWise
open Cert.Recommender

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing: the claim is `True`. -/
theorem preserves : Cert.preserves_Kernel_KernelIdeal := trivial

/-! ## The two results are one array -/

/-- The reference's result stage, on the kernel's launch memory, is the array the kernel's run ends at: both hold,
    in row p, the score of row p (`rows_reference`, `rows_G`), the gathered rows being the same arrays. -/
theorem reference_eq_result (m : (ℓ : Loc Cert.KernelIdeal.nD Cert.KernelIdeal.τ Cert.KernelIdeal.sig) → Buf (Elt Ideal) ℓ)
    (c : Dev Cert.KernelIdeal.nD) :
    Cert.ReferenceIdeal.ReadP.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
    = Blocks.result m c :=
  Rows.ext
    (Reference.rows_reference (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      (m ((c.tc : Thread Cert.KernelIdeal.nD Cert.KernelIdeal.τ).loc Cert.KernelIdeal.main_arg13)))
    (rows_G (Operands.userRows m c) (Operands.itemRows m c) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)))

/-- From memories that agree on the arguments both programs run and end with the same result array. -/
theorem algebraic : Cert.algebraic_KernelIdeal_ReferenceIdeal := by
  intro m ρ m' ρ' _ hagree
  refine ⟨fun c => Blocks.result m c, Blocks.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7, a8, a9, a10, a11, a12, a13⟩ := hagree c
  rw [Cert.ReferenceIdeal.ReadP.val_main_v42_eq, a0, a1, a2, a3, a4, a5, a6, a7, a8, a9, a10, a11, a12, a13]
  exact reference_eq_result m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
